-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S64x64 : Shape := ⟨2, ![64, 64]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S16x64x256x256 .f32) (main_arg1 : FVec F S64x64 .f32) (main_arg2 : FVec F S64x64 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S16x64x256x256 : Shape := ⟨4, ![16, 64, 256, 256]⟩
abbrev S64x64 : Shape := ⟨2, ![64, 64]⟩
abbrev S16x64x64 : Shape := ⟨3, ![16, 64, 64]⟩
abbrev S1x64x256x256 : Shape := ⟨4, ![1, 64, 256, 256]⟩
abbrev S1x64x64 : Shape := ⟨3, ![1, 64, 64]⟩
abbrev S64x256x256 : Shape := ⟨3, ![64, 256, 256]⟩
abbrev S64x8x32x8x32 : Shape := ⟨5, ![64, 8, 32, 8, 32]⟩
abbrev S64x8x32x8 : Shape := ⟨4, ![64, 8, 32, 8]⟩
abbrev S64x8x8 : Shape := ⟨3, ![64, 8, 8]⟩
abbrev S64 : Shape := ⟨1, ![64]⟩
abbrev S64x1 : Shape := ⟨2, ![64, 1]⟩
abbrev S1x16x256x256 : Shape := ⟨4, ![1, 16, 256, 256]⟩
abbrev S16x256x256 : Shape := ⟨3, ![16, 256, 256]⟩
abbrev S16x8x32x8x32 : Shape := ⟨5, ![16, 8, 32, 8, 32]⟩
abbrev S8x8x16x32x32 : Shape := ⟨5, ![8, 8, 16, 32, 32]⟩
abbrev S64x16384 : Shape := ⟨2, ![64, 16384]⟩

abbrev nBuf : Space → Nat
  | .hbm => 5
  | .vmem => 12
  | .smem => 0
  | _ => 0

abbrev bufTy : (tb : Table) → Fin (tcTables nBuf tb) → BufTy
  | .hbm, ⟨0, _⟩ => ⟨S16x64x256x256, .f32⟩
  | .hbm, ⟨1, _⟩ => ⟨S64x64, .f32⟩
  | .hbm, ⟨2, _⟩ => ⟨S64x64, .f32⟩
  | .hbm, ⟨3, _⟩ => ⟨S16x64x64, .f32⟩
  | .hbm, ⟨4, _⟩ => ⟨S16x64x256x256, .f32⟩
  | .local _ .vmem, ⟨0, _⟩ => ⟨S1x64x256x256, .f32⟩
  | .local _ .vmem, ⟨1, _⟩ => ⟨S1x64x256x256, .f32⟩
  | .local _ .vmem, ⟨2, _⟩ => ⟨S64x64, .f32⟩
  | .local _ .vmem, ⟨3, _⟩ => ⟨S64x64, .f32⟩
  | .local _ .vmem, ⟨4, _⟩ => ⟨S1x64x64, .f32⟩
  | .local _ .vmem, ⟨5, _⟩ => ⟨S1x64x64, .f32⟩
  | .local _ .vmem, ⟨6, _⟩ => ⟨S1x16x256x256, .f32⟩
  | .local _ .vmem, ⟨7, _⟩ => ⟨S1x16x256x256, .f32⟩
  | .local _ .vmem, ⟨8, _⟩ => ⟨S1x64x64, .f32⟩
  | .local _ .vmem, ⟨9, _⟩ => ⟨S1x64x64, .f32⟩
  | .local _ .vmem, ⟨10, _⟩ => ⟨S1x16x256x256, .f32⟩
  | .local _ .vmem, ⟨11, _⟩ => ⟨S1x16x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x16x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x64x256x256_S1x64x256x256_0_0_0_0 : ∀ a, (![0, 0, 0, 0] : Fin 4 → Nat) a + S1x64x256x256.size a ≤ S1x64x256x256.size a
  h_S1x64x256x256 : 0 < S1x64x256x256.numel
  shapeCasts_S1x64x256x256_S64x256x256 : S1x64x256x256.ShapeCasts S64x256x256
  shapeCasts_S64x256x256_S64x8x32x8x32 : S64x256x256.ShapeCasts S64x8x32x8x32
  reduces_S64x8x32x8x32_S64x8x32x8 : S64x8x32x8x32.Reduces [4] S64x8x32x8
  reduces_S64x8x32x8_S64x8x8 : S64x8x32x8.Reduces [2] S64x8x8
  shapeCasts_S64x8x8_S64x64 : S64x8x8.ShapeCasts S64x64
  transposes_S64x64_p1_0_S64x64 : S64x64.Transposes [1, 0] S64x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  reduces_S64x64_S64 : S64x64.Reduces [1] S64
  shapeCasts_S64_S64x1 : S64.ShapeCasts S64x1
  broadcasts_S64x1_S64x64 : S64x1.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S16x8x32x8x32 : S16x256x256.ShapeCasts S16x8x32x8x32
  transposes_S16x8x32x8x32_p1_3_0_2_4_S8x8x16x32x32 : S16x8x32x8x32.Transposes [1, 3, 0, 2, 4] S8x8x16x32x32
  shapeCasts_S8x8x16x32x32_S64x16384 : S8x8x16x32x32.ShapeCasts S64x16384
  shapeCasts_S64x16384_S8x8x16x32x32 : S64x16384.ShapeCasts S8x8x16x32x32
  transposes_S8x8x16x32x32_p2_0_3_1_4_S16x8x32x8x32 : S8x8x16x32x32.Transposes [2, 0, 3, 1, 4] S16x8x32x8x32
  shapeCasts_S16x8x32x8x32_S16x256x256 : S16x8x32x8x32.ShapeCasts S16x256x256
  shapeCasts_S16x256x256_S1x16x256x256 : S16x256x256.ShapeCasts S1x16x256x256
  dot_S64x64_S64x64_S64x64_1_0_0_1_n_n_wf : DotDims.WF S64x64 S64x64 S64x64 [1] [0] [0] [1] [] []
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x256.size a ≤ S16x64x256x256.size a
  hwx0_0 : ∀ i : grid0.Coords, EltTy.bits .f32 = 32 ∨ (Rect.block (s := S16x64x256x256) S1x64x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S16x64x64.size a
  hwx0_3 : ∀ i : grid0.Coords, EltTy.bits .f32 = 32 ∨ (Rect.block (s := S16x64x64) S1x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x256.size a ≤ S16x64x256x256.size a
  hwx1_0 : ∀ i : grid1.Coords, EltTy.bits .f32 = 32 ∨ (Rect.block (s := S16x64x256x256) S1x16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S16x64x64.size a
  hwx1_1 : ∀ i : grid1.Coords, EltTy.bits .f32 = 32 ∨ (Rect.block (s := S16x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x256x256.size a ≤ S16x64x256x256.size a
  hwx1_2 : ∀ i : grid1.Coords, EltTy.bits .f32 = 32 ∨ (Rect.block (s := S16x64x256x256) S1x16x256x256.size (cc1_transform_2 i) (hinb1_2 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_arg0) S1x64x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x16x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x64x256x256 : Shape := ⟨4, ![16, 64, 256, 256]⟩
abbrev S64x64 : Shape := ⟨2, ![64, 64]⟩
abbrev S16x64x8x32x8x32 : Shape := ⟨6, ![16, 64, 8, 32, 8, 32]⟩
abbrev S_ : Shape := ⟨0, ![]⟩
abbrev S16x64x8x8 : Shape := ⟨4, ![16, 64, 8, 8]⟩
abbrev S16x64x64 : Shape := ⟨3, ![16, 64, 64]⟩
abbrev S16x256x256x64 : Shape := ⟨4, ![16, 256, 256, 64]⟩
abbrev S16x8x32x8x32x64 : Shape := ⟨6, ![16, 8, 32, 8, 32, 64]⟩
abbrev S16x8x8x32x32x64 : Shape := ⟨6, ![16, 8, 8, 32, 32, 64]⟩
abbrev S16x64x65536 : Shape := ⟨3, ![16, 64, 65536]⟩
abbrev S16x64 : Shape := ⟨2, ![16, 64]⟩
abbrev S16x64x1 : Shape := ⟨3, ![16, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S64x64, .f32⟩
  | .hbm, ⟨2, _⟩ => ⟨S64x64, .f32⟩
  | .hbm, ⟨3, _⟩ => ⟨S16x64x8x32x8x32, .f32⟩
  | .hbm, ⟨4, _⟩ => ⟨S_, .f32⟩
  | .hbm, ⟨5, _⟩ => ⟨S16x64x8x8, .f32⟩
  | .hbm, ⟨6, _⟩ => ⟨S_, .f32⟩
  | .hbm, ⟨7, _⟩ => ⟨S16x64x8x8, .f32⟩
  | .hbm, ⟨8, _⟩ => ⟨S16x64x8x8, .f32⟩
  | .hbm, ⟨9, _⟩ => ⟨S16x64x64, .f32⟩
  | .hbm, ⟨10, _⟩ => ⟨S16x64x64, .f32⟩
  | .hbm, ⟨11, _⟩ => ⟨S16x64x64, .f32⟩
  | .hbm, ⟨12, _⟩ => ⟨S16x64x64, .f32⟩
  | .hbm, ⟨13, _⟩ => ⟨S16x256x256x64, .f32⟩
  | .hbm, ⟨14, _⟩ => ⟨S16x8x32x8x32x64, .f32⟩
  | .hbm, ⟨15, _⟩ => ⟨S16x8x8x32x32x64, .f32⟩
  | .hbm, ⟨16, _⟩ => ⟨S16x64x65536, .f32⟩
  | .hbm, ⟨17, _⟩ => ⟨S16x64x64, .f32⟩
  | .hbm, ⟨18, _⟩ => ⟨S_, .f32⟩
  | .hbm, ⟨19, _⟩ => ⟨S16x64x64, .f32⟩
  | .hbm, ⟨20, _⟩ => ⟨S16x64x64, .f32⟩
  | .hbm, ⟨21, _⟩ => ⟨S_, .f32⟩
  | .hbm, ⟨22, _⟩ => ⟨S16x64, .f32⟩
  | .hbm, ⟨23, _⟩ => ⟨S_, .f32⟩
  | .hbm, ⟨24, _⟩ => ⟨S16x64, .f32⟩
  | .hbm, ⟨25, _⟩ => ⟨S16x64, .f32⟩
  | .hbm, ⟨26, _⟩ => ⟨S16x64x1, .f32⟩
  | .hbm, ⟨27, _⟩ => ⟨S16x64x64, .f32⟩
  | .hbm, ⟨28, _⟩ => ⟨S16x64x64, .f32⟩
  | .hbm, ⟨29, _⟩ => ⟨S16x64x64, .f32⟩
  | .hbm, ⟨30, _⟩ => ⟨S_, .f32⟩
  | .hbm, ⟨31, _⟩ => ⟨S16x64, .f32⟩
  | .hbm, ⟨32, _⟩ => ⟨S16x64x1, .f32⟩
  | .hbm, ⟨33, _⟩ => ⟨S16x64x64, .f32⟩
  | .hbm, ⟨34, _⟩ => ⟨S16x64x64, .f32⟩
  | .hbm, ⟨35, _⟩ => ⟨S16x64x65536, .f32⟩
  | .hbm, ⟨36, _⟩ => ⟨S16x8x8x32x32x64, .f32⟩
  | .hbm, ⟨37, _⟩ => ⟨S16x8x32x8x32x64, .f32⟩
  | .hbm, ⟨38, _⟩ => ⟨S16x256x256x64, .f32⟩
  | .hbm, ⟨39, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  shapeCasts_S16x64x256x256_S16x64x8x32x8x32 : S16x64x256x256.ShapeCasts S16x64x8x32x8x32
  reducesTo_S16x64x8x32x8x32_S16x64x8x8_d3_5 : S16x64x8x32x8x32.ReducesTo [3, 5] S16x64x8x8
  h_S_ : 0 < S_.numel
  bcast_S_S16x64x8x8 : S_.BroadcastsInDim S16x64x8x8 (![] : Fin 0 → Fin S16x64x8x8.rank)
  shapeCasts_S16x64x8x8_S16x64x64 : S16x64x8x8.ShapeCasts S16x64x64
  transposes_S16x64x64_S16x64x64_0_2_1 : S16x64x64.Transposes [0, 2, 1] S16x64x64
  transposes_S16x64x256x256_S16x256x256x64_0_2_3_1 : S16x64x256x256.Transposes [0, 2, 3, 1] S16x256x256x64
  shapeCasts_S16x256x256x64_S16x8x32x8x32x64 : S16x256x256x64.ShapeCasts S16x8x32x8x32x64
  transposes_S16x8x32x8x32x64_S16x8x8x32x32x64_0_1_3_2_4_5 : S16x8x32x8x32x64.Transposes [0, 1, 3, 2, 4, 5] S16x8x8x32x32x64
  shapeCasts_S16x8x8x32x32x64_S16x64x65536 : S16x8x8x32x32x64.ShapeCasts S16x64x65536
  bcast_S_S16x64x64 : S_.BroadcastsInDim S16x64x64 (![] : Fin 0 → Fin S16x64x64.rank)
  reducesTo_S16x64x64_S16x64_d2 : S16x64x64.ReducesTo [2] S16x64
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x64_0_1_2 : S16x64x1.BroadcastsInDim S16x64x64 (![0, 1, 2] : Fin 3 → Fin S16x64x64.rank)
  shapeCasts_S16x64x65536_S16x8x8x32x32x64 : S16x64x65536.ShapeCasts S16x8x8x32x32x64
  transposes_S16x8x8x32x32x64_S16x8x32x8x32x64_0_1_3_2_4_5 : S16x8x8x32x32x64.Transposes [0, 1, 3, 2, 4, 5] S16x8x32x8x32x64
  shapeCasts_S16x8x32x8x32x64_S16x256x256x64 : S16x8x32x8x32x64.ShapeCasts S16x256x256x64
  transposes_S16x256x256x64_S16x64x256x256_0_3_1_2 : S16x256x256x64.Transposes [0, 3, 1, 2] S16x64x256x256
  dot_S16x64x64_S64x64_S16x64x64_2_1_01_0_n_n_wf : DotDims.WF S16x64x64 S64x64 S16x64x64 [2] [1] [0, 1] [0] [] []
  dot_S16x64x64_S16x64x64_S16x64x64_2_2_1_1_0_0_wf : DotDims.WF S16x64x64 S16x64x64 S16x64x64 [2] [2] [1] [1] [0] [0]
  dot_S16x64x64_S16x64x65536_S16x64x65536_2_1_1_2_0_0_wf : DotDims.WF S16x64x64 S16x64x65536 S16x64x65536 [2] [1] [1] [2] [0] [0]

variable [Facts₀]

def dot_S16x64x64_S64x64_S16x64x64_2_1_01_0_n_n : DotDims S16x64x64 S64x64 S16x64x64 where
  lhsContracting := [2]
  rhsContracting := [1]
  lhsNonContracting := [0, 1]
  rhsNonContracting := [0]
  lhsBatch := []
  rhsBatch := []
  wf := dot_S16x64x64_S64x64_S16x64x64_2_1_01_0_n_n_wf
def dot_S16x64x64_S16x64x64_S16x64x64_2_2_1_1_0_0 : DotDims S16x64x64 S16x64x64 S16x64x64 where
  lhsContracting := [2]
  rhsContracting := [2]
  lhsNonContracting := [1]
  rhsNonContracting := [1]
  lhsBatch := [0]
  rhsBatch := [0]
  wf := dot_S16x64x64_S16x64x64_S16x64x64_2_2_1_1_0_0_wf
def dot_S16x64x64_S16x64x65536_S16x64x65536_2_1_1_2_0_0 : DotDims S16x64x64 S16x64x65536 S16x64x65536 where
  lhsContracting := [2]
  rhsContracting := [1]
  lhsNonContracting := [1]
  rhsNonContracting := [2]
  lhsBatch := [0]
  rhsBatch := [0]
  wf := dot_S16x64x64_S16x64x65536_S16x64x65536_2_1_1_2_0_0_wf

class Facts : Prop extends Facts₀ where

variable [Facts]
-- ==== Proof.Spec.lean ====
/-
  The mathematics both programs compute, as two whole-array functions over the extended reals.

  The input `X` is a batch of 16 images of 64 channels, 256 × 256 each; every image is cut into an 8 × 8 board of
  windows of 32 × 32 pixels, window `n = 8·wi + wj` holding rows `32·wi …` and columns `32·wj …`.

  * `tok X b n c`: the mean of channel `c` over window `n` (the sum of the window's 1024 entries times 2⁻¹⁰).
  * `proj X W b n k = ∑ c, tok X b n c · W[k, c]`: the window's token projected by a 64 × 64 weight.
  * `score`: the 64 × 64 table of scaled inner products of the two projections, `(∑ k, q[n,k] · k[m,k]) · 1/8`.
  * `distArr`: the row-wise softmax of `score`, spelled as the programs spell it: the row's maximum (folded from
    −∞ and once more compared with −∞), the exponentials of the differences, their row sum, the quotient.
  * `applyArr D X`: every output pixel is the `D`-weighted sum, over the 64 windows `m`, of the pixel at the same
    place inside window `m` of the same channel: `out[b,c,h,w] = ∑ m, D[b, win(h,w), m] · X[b, c, row m (h mod 32), col m (w mod 32)]`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The image batch's shape, a weight's, and the attention table's. -/
abbrev SX : Shape := ⟨4, ![16, 64, 256, 256]⟩
abbrev SW : Shape := ⟨2, ![64, 64]⟩
abbrev SD : Shape := ⟨3, ![16, 64, 64]⟩

/-- Row `r` of window `n` is image row `32·(n / 8) + r`. -/
def winRow (n : Fin 64) (r : Fin 32) : Fin 256 := ⟨(n.val / 8) * 32 + r.val, by omega⟩
/-- Column `s` of window `n` is image column `32·(n mod 8) + s`. -/
def winCol (n : Fin 64) (s : Fin 32) : Fin 256 := ⟨(n.val % 8) * 32 + s.val, by omega⟩
/-- The window a pixel lies in. -/
def winOf (h w : Fin 256) : Fin 64 := ⟨(h.val / 32) * 8 + w.val / 32, by omega⟩
/-- A pixel coordinate's place inside its window. -/
def inWin (h : Fin 256) : Fin 32 := ⟨h.val % 32, by omega⟩

theorem winRow_val (n : Fin 64) (r : Fin 32) : (winRow n r).val = (n.val / 8) * 32 + r.val := rfl
theorem winCol_val (n : Fin 64) (s : Fin 32) : (winCol n s).val = (n.val % 8) * 32 + s.val := rfl
theorem winOf_val (h w : Fin 256) : (winOf h w).val = (h.val / 32) * 8 + w.val / 32 := rfl
theorem inWin_val (h : Fin 256) : (inWin h).val = h.val % 32 := rfl

/-- The pooled token: the window's sum, rows outside and columns inside, times the literal 2⁻¹⁰. -/
def tok (X : SX.Idx → EReal) (b : Fin 16) (n c : Fin 64) : EReal :=
  (∑ r : Fin 32, ∑ s : Fin 32, X (ix4 b c (winRow n r) (winCol n s))) * Ideal.ofBits .f32 0x3A800000#32

/-- A token projected by a weight matrix `W[k, c]`. -/
def proj (X : SX.Idx → EReal) (W : SW.Idx → EReal) (b : Fin 16) (n k : Fin 64) : EReal :=
  ∑ c : Fin 64, tok X b n c * W (ix2 k c)

/-- The scaled scores. -/
def score (X : SX.Idx → EReal) (Wq Wk : SW.Idx → EReal) (b : Fin 16) (n m : Fin 64) : EReal :=
  (∑ k : Fin 64, proj X Wq b n k * proj X Wk b m k) * Ideal.ofBits .f32 0x3E000000#32

/-- A row's maximum as both programs take it. -/
def rowMax (X : SX.Idx → EReal) (Wq Wk : SW.Idx → EReal) (b : Fin 16) (n : Fin 64) : EReal :=
  max (Ideal.ofBits .f32 0xFF800000#32)
    ((Finset.univ : Finset (Fin 64)).fold max (Ideal.ofBits .f32 0xFF800000#32) (fun m => score X Wq Wk b n m))

/-- The exponential of a score less its row's maximum. -/
def expo (X : SX.Idx → EReal) (Wq Wk : SW.Idx → EReal) (b : Fin 16) (n m : Fin 64) : EReal :=
  Ideal.exp (score X Wq Wk b n m - rowMax X Wq Wk b n)

/-- A row's sum of exponentials. -/
def rowSum (X : SX.Idx → EReal) (Wq Wk : SW.Idx → EReal) (b : Fin 16) (n : Fin 64) : EReal :=
  ∑ m : Fin 64, expo X Wq Wk b n m

/-- The attention table: the row-wise softmax of the scores. -/
def distArr (X : SX.Idx → EReal) (Wq Wk : SW.Idx → EReal) : SD.Idx → EReal := fun i =>
  Ideal.div (expo X Wq Wk (i 0) (i 1) (i 2)) (rowSum X Wq Wk (i 0) (i 1))

/-- The windows of every channel mixed by the table. -/
def applyArr (D : SD.Idx → EReal) (X : SX.Idx → EReal) : SX.Idx → EReal := fun i =>
  ∑ m : Fin 64, D (ix3 (i 0) (winOf (i 2) (i 3)) m) * X (ix4 (i 0) (i 1) (winRow m (inWin (i 2))) (winCol m (inWin (i 3))))

/-- The literal 1024 and the literal 2⁻¹⁰: dividing by the one is multiplying by the other, on every extended real. -/
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem div_1024 (x : EReal) : Ideal.div x (Ideal.ofBits .f32 0x44800000#32) = x * Ideal.ofBits .f32 0x3A800000#32 := by
  rw [ofBits_1024, ofBits_inv1024, Ideal.div_coe (by norm_num : (1024 : ℝ) ≠ 0)]

end Cert.Spec

end
-- ==== Proof.KernelPayload1.lean ====
/-
  The arithmetic of the first kernel body at one entry of the block it stores: from one batch image and the two
  weights to one entry of that image's attention table.

  The body is read in five stages, each a vector-valued function of the stage before it: the window sums times 2⁻¹⁰
  (`pool`), the 64 × 64 token table (`toks`), a token table times a transposed weight (`projv`), the scaled product of
  the two projections (`scorev`), and the row-wise softmax (`softv`). Each stage is read at an entry over explicit
  coordinates, and the entry of the whole is their composition.
-/
import proofs.«131493_j39797166964879_1_alg».proof.Proof.Gen.KernelIdeal.Skeleton
import proofs.«131493_j39797166964879_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Payload1

open Cert.KernelIdeal Cert.KernelIdeal.Gen
open Idealize.ShloMosaic Idealize.ShloMosaic.TcCoe Idealize.ShloMosaic.ValueIdx

/-! ### The 64 × 64 matrix product read at an entry -/

private theorem lhs_mm_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
private theorem lhs_mm_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
private theorem rhs_mm_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
private theorem rhs_mm_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl

/-- A product into the zero accumulator, at entry `(n, m)`: the sum over the shared axis. -/
private theorem mm_apply {φ₁ φ₂ : FTy} (A : FVec Ideal S64x64 φ₁) (B : FVec Ideal S64x64 φ₂) (n m : Fin 64) :
    matmul dot_S64x64_S64x64_S64x64_1_0_0_1_n_n none A B (constant (F := Ideal) S64x64 .f32 0x00000000#32) (ix2 n m)
      = ∑ k : Fin 64, A (ix2 n k) * B (ix2 k m) := by
  simp only [matmul]
  rw [Ideal.matmul_constant_zero_apply, ← Equiv.sum_comp (ValueIdx.contrEquiv1 dot_S64x64_S64x64_S64x64_1_0_0_1_n_n 64 rfl rfl).symm]
  refine Finset.sum_congr rfl fun k _ => ?_
  have hk := ValueIdx.contrEquiv1_symm_val dot_S64x64_S64x64_S64x64_1_0_0_1_n_n 64 rfl rfl k
  have el : dot_S64x64_S64x64_S64x64_1_0_0_1_n_n.lhsIdx (ix2 n m) ((ValueIdx.contrEquiv1 dot_S64x64_S64x64_S64x64_1_0_0_1_n_n 64 rfl rfl).symm k) = ix2 n k := funext fun a => Fin.ext (by
    match a with
    | ⟨0, _⟩ => exact lhs_mm_0 _ _
    | ⟨1, _⟩ => exact (lhs_mm_1 _ _).trans hk)
  have er : dot_S64x64_S64x64_S64x64_1_0_0_1_n_n.rhsIdx (ix2 n m) ((ValueIdx.contrEquiv1 dot_S64x64_S64x64_S64x64_1_0_0_1_n_n 64 rfl rfl).symm k) = ix2 k m := funext fun a => Fin.ext (by
    match a with
    | ⟨0, _⟩ => exact (rhs_mm_0 _ _).trans hk
    | ⟨1, _⟩ => exact rhs_mm_1 _ _)
  rw [el, er]

/-- The transposed square matrix at `(n, m)` is the matrix at `(m, n)`. -/
private theorem tr_apply {α : Type} (A : S64x64.Idx → α) (n m : Fin 64) :
    transpose S64x64 [1, 0] A transposes_S64x64_p1_0_S64x64 (ix2 n m) = A (ix2 m n) :=
  transpose_apply [1, 0] A transposes_S64x64_p1_0_S64x64 (ix2 n m) (ix2 m n) (fun b => match b with
    | ⟨0, _⟩ => rfl
    | ⟨1, _⟩ => rfl)

/-! ### The window sums -/

/-- The image block regrouped as channel × window row × row × window column × column. -/
private theorem regroup_apply (x0 : Vec Ideal S1x64x256x256 .f32) (c : Fin 64) (wi : Fin 8) (r : Fin 32) (wj : Fin 8) (s : Fin 32) :
    shapeCast S64x8x32x8x32 (shapeCast S64x256x256 x0 shapeCasts_S1x64x256x256_S64x256x256) shapeCasts_S64x256x256_S64x8x32x8x32 (ix5 c wi r wj s)
      = x0 (ix4 (0 : Fin 1) c ⟨wi.val * 32 + r.val, by omega⟩ ⟨wj.val * 32 + s.val, by omega⟩) := by
  refine (shapeCast_apply _ shapeCasts_S64x256x256_S64x8x32x8x32 (ix5 c wi r wj s)
    (ix3 c (⟨wi.val * 32 + r.val, by omega⟩ : Fin 256) (⟨wj.val * 32 + s.val, by omega⟩ : Fin 256)) ?_).trans ?_
  · rw [Shape.rowMajor_val_three, Shape.rowMajor_val_five]
    show (c.val * 256 + (wi.val * 32 + r.val)) * 256 + (wj.val * 32 + s.val)
      = (((c.val * 8 + wi.val) * 32 + r.val) * 8 + wj.val) * 32 + s.val
    omega
  · exact shapeCast_1abc_abc_apply x0 _ c _ _

/-- The sum over the innermost axis (a window's columns). -/
private theorem sum_axis4 (v : FVec Ideal S64x8x32x8x32 .f32) (hφ : FKind.Formats .f32)
    (hacc : (0x00000000#32 : BitVec 32) = FKind.add.neutral .f32 hφ) (c : Fin 64) (wi : Fin 8) (r : Fin 32) (wj : Fin 8) :
    multiReduction (F := Ideal) .add [4] S64x8x32x8 v 0x00000000#32 reduces_S64x8x32x8x32_S64x8x32x8 hφ hacc (ix4 c wi r wj)
      = ∑ s : Fin 32, v (ix5 c wi r wj s) := by
  refine (Ideal.multiReduction_add_single v 0x00000000#32 reduces_S64x8x32x8x32_S64x8x32x8 hφ hacc (ix4 c wi r wj)).trans ?_
  refine Finset.sum_congr rfl fun s _ => congrArg v (funext fun a => Fin.ext ?_)
  match a with
  | ⟨0, _⟩ => rfl
  | ⟨1, _⟩ => rfl
  | ⟨2, _⟩ => rfl
  | ⟨3, _⟩ => rfl
  | ⟨4, _⟩ => rfl

/-- The sum over the axis of a window's rows. -/
private theorem sum_axis2 (v : FVec Ideal S64x8x32x8 .f32) (hφ : FKind.Formats .f32)
    (hacc : (0x00000000#32 : BitVec 32) = FKind.add.neutral .f32 hφ) (c : Fin 64) (wi wj : Fin 8) :
    multiReduction (F := Ideal) .add [2] S64x8x8 v 0x00000000#32 reduces_S64x8x32x8_S64x8x8 hφ hacc (ix3 c wi wj)
      = ∑ r : Fin 32, v (ix4 c wi r wj) := by
  refine (Ideal.multiReduction_add_single v 0x00000000#32 reduces_S64x8x32x8_S64x8x8 hφ hacc (ix3 c wi wj)).trans ?_
  refine Finset.sum_congr rfl fun r _ => congrArg v (funext fun a => Fin.ext ?_)
  match a with
  | ⟨0, _⟩ => rfl
  | ⟨1, _⟩ => rfl
  | ⟨2, _⟩ => rfl
  | ⟨3, _⟩ => rfl

/-- The pooled block: every window's sum times the literal 2⁻¹⁰. -/
private def pool (x0 : Vec Ideal S1x64x256x256 .f32) : FVec Ideal S64x8x8 .f32 :=
  mulf
    (multiReduction .add [2] S64x8x8
      (multiReduction .add [4] S64x8x32x8
        (shapeCast S64x8x32x8x32 (shapeCast S64x256x256 x0 shapeCasts_S1x64x256x256_S64x256x256) shapeCasts_S64x256x256_S64x8x32x8x32)
        0x00000000#32 reduces_S64x8x32x8x32_S64x8x32x8 (.inl rfl) rfl)
      0x00000000#32 reduces_S64x8x32x8_S64x8x8 (.inl rfl) rfl)
    (broadcast S64x8x8 (Scalar.ofBits .f32 0x3A800000#32))

private theorem pool_apply (x0 : Vec Ideal S1x64x256x256 .f32) (c : Fin 64) (wi wj : Fin 8) :
    pool x0 (ix3 c wi wj)
      = (∑ r : Fin 32, ∑ s : Fin 32, x0 (ix4 (0 : Fin 1) c ⟨wi.val * 32 + r.val, by omega⟩ ⟨wj.val * 32 + s.val, by omega⟩))
        * Ideal.ofBits .f32 0x3A800000#32 := by
  unfold pool
  refine (mulf_apply _ _ _).trans ?_
  refine congrArg₂ (· * ·) ?_ rfl
  refine (sum_axis2 _ _ _ c wi wj).trans (Finset.sum_congr rfl fun r _ => ?_)
  exact (sum_axis4 _ _ _ c wi r wj).trans (Finset.sum_congr rfl fun s _ => regroup_apply x0 c wi r wj s)

/-! ### Tokens, projections, scores -/

/-- The pooled block as a 64 × 64 table of tokens: windows down, channels across. -/
private def toks (x0 : Vec Ideal S1x64x256x256 .f32) : FVec Ideal S64x64 .f32 :=
  transpose S64x64 [1, 0] (shapeCast S64x64 (pool x0) shapeCasts_S64x8x8_S64x64) transposes_S64x64_p1_0_S64x64

private theorem toks_apply (X : Cert.Spec.SX.Idx → EReal) (b : Fin 16) (x0 : Vec Ideal S1x64x256x256 .f32)
    (hx0 : ∀ (c : Fin 64) (h w : Fin 256), x0 (ix4 (0 : Fin 1) c h w) = X (ix4 b c h w)) (n c : Fin 64) :
    toks x0 (ix2 n c) = Cert.Spec.tok X b n c := by
  unfold toks
  refine (tr_apply _ n c).trans ?_
  refine (shapeCast_apply _ shapeCasts_S64x8x8_S64x64 (ix2 c n)
    (ix3 c (⟨n.val / 8, by omega⟩ : Fin 8) (⟨n.val % 8, by omega⟩ : Fin 8)) ?_).trans ?_
  · rw [Shape.rowMajor_val_three, Shape.rowMajor_val_two]
    show (c.val * 8 + n.val / 8) * 8 + n.val % 8 = c.val * 64 + n.val
    omega
  · refine (pool_apply x0 c _ _).trans ?_
    unfold Cert.Spec.tok
    refine congrArg₂ (· * ·) ?_ rfl
    exact Finset.sum_congr rfl fun r _ => Finset.sum_congr rfl fun s _ => hx0 c _ _

/-- A token table times a transposed weight. -/
private def projv (v8 : FVec Ideal S64x64 .f32) (w : Vec Ideal S64x64 .f32) : FVec Ideal S64x64 .f32 :=
  matmul dot_S64x64_S64x64_S64x64_1_0_0_1_n_n none
    (truncf .bf16 v8 bitsLt_bf16_f32)
    (truncf .bf16 (transpose S64x64 [1, 0] w transposes_S64x64_p1_0_S64x64) bitsLt_bf16_f32)
    (constant S64x64 .f32 0x00000000#32)

private theorem projv_apply (v8 : FVec Ideal S64x64 .f32) (w : Vec Ideal S64x64 .f32) (n k : Fin 64) :
    projv v8 w (ix2 n k) = ∑ c : Fin 64, v8 (ix2 n c) * w (ix2 k c) := by
  unfold projv
  refine (mm_apply _ _ n k).trans (Finset.sum_congr rfl fun c _ => ?_)
  show v8 (ix2 n c) * transpose S64x64 [1, 0] w transposes_S64x64_p1_0_S64x64 (ix2 c k) = _
  rw [tr_apply]

/-- The two projections multiplied, the second transposed, times the literal 1/8. -/
private def scorev (v14 v18 : FVec Ideal S64x64 .f32) : FVec Ideal S64x64 .f32 :=
  mulf
    (matmul dot_S64x64_S64x64_S64x64_1_0_0_1_n_n none
      (truncf .bf16 v14 bitsLt_bf16_f32)
      (truncf .bf16 (transpose S64x64 [1, 0] v18 transposes_S64x64_p1_0_S64x64) bitsLt_bf16_f32)
      (constant S64x64 .f32 0x00000000#32))
    (broadcast S64x64 (Scalar.ofBits .f32 0x3E000000#32))

private theorem scorev_apply (v14 v18 : FVec Ideal S64x64 .f32) (n m : Fin 64) :
    scorev v14 v18 (ix2 n m) = (∑ k : Fin 64, v14 (ix2 n k) * v18 (ix2 m k)) * Ideal.ofBits .f32 0x3E000000#32 := by
  unfold scorev
  refine (mulf_apply _ _ _).trans ?_
  refine congrArg₂ (· * ·) ?_ rfl
  refine (mm_apply _ _ n m).trans (Finset.sum_congr rfl fun k _ => ?_)
  show v14 (ix2 n k) * transpose S64x64 [1, 0] v18 transposes_S64x64_p1_0_S64x64 (ix2 k m) = _
  rw [tr_apply]

private theorem score_eq (X : Cert.Spec.SX.Idx → EReal) (b : Fin 16) (x0 : Vec Ideal S1x64x256x256 .f32)
    (x1 x2 : Vec Ideal S64x64 .f32)
    (hx0 : ∀ (c : Fin 64) (h w : Fin 256), x0 (ix4 (0 : Fin 1) c h w) = X (ix4 b c h w)) (n m : Fin 64) :
    scorev (projv (toks x0) x1) (projv (toks x0) x2) (ix2 n m) = Cert.Spec.score X x1 x2 b n m := by
  have hp : ∀ (w : Vec Ideal S64x64 .f32) (n k : Fin 64), projv (toks x0) w (ix2 n k) = Cert.Spec.proj X w b n k := fun w n k => by
    refine (projv_apply _ w n k).trans ?_
    unfold Cert.Spec.proj
    exact Finset.sum_congr rfl fun c _ => by rw [toks_apply X b x0 hx0]
  refine (scorev_apply _ _ n m).trans ?_
  unfold Cert.Spec.score
  refine congrArg₂ (· * ·) ?_ rfl
  exact Finset.sum_congr rfl fun k _ => by rw [hp, hp]

/-! ### The row-wise softmax -/

/-- The maximum over a row, folded from −∞. -/
private theorem max_axis1 (v : FVec Ideal S64x64 .f32) (hφ : FKind.Formats .f32)
    (hacc : (0xFF800000#32 : BitVec 32) = FKind.maximumf.neutral .f32 hφ) (n : Fin 64) :
    multiReduction (F := Ideal) .maximumf [1] S64 v 0xFF800000#32 reduces_S64x64_S64 hφ hacc (ix1 n)
      = (Finset.univ : Finset (Fin 64)).fold max (Ideal.ofBits .f32 0xFF800000#32) (fun m => v (ix2 n m)) := by
  refine (Ideal.multiReduction_maximumf_single v 0xFF800000#32 reduces_S64x64_S64 hφ hacc (ix1 n)).trans ?_
  have e : (v ∘ reduces_S64x64_S64.lift (ix1 n)) = fun m : Fin 64 => v (ix2 n m) :=
    funext fun m => congrArg v (funext fun a => Fin.ext (by
      match a with
      | ⟨0, _⟩ => rfl
      | ⟨1, _⟩ => rfl))
  exact congrArg (fun f : Fin 64 → EReal => Finset.fold max (Ideal.ofBits .f32 0xFF800000#32) f Finset.univ) e

/-- The sum over a row. -/
private theorem sum_axis1 (v : FVec Ideal S64x64 .f32) (hφ : FKind.Formats .f32)
    (hacc : (0x00000000#32 : BitVec 32) = FKind.add.neutral .f32 hφ) (n : Fin 64) :
    multiReduction (F := Ideal) .add [1] S64 v 0x00000000#32 reduces_S64x64_S64 hφ hacc (ix1 n)
      = ∑ m : Fin 64, v (ix2 n m) := by
  refine (Ideal.multiReduction_add_single v 0x00000000#32 reduces_S64x64_S64 hφ hacc (ix1 n)).trans ?_
  refine Finset.sum_congr rfl fun m _ => congrArg v (funext fun a => Fin.ext ?_)
  match a with
  | ⟨0, _⟩ => rfl
  | ⟨1, _⟩ => rfl

/-- A vector written as a one-column table. -/
private theorem col_apply {α : Type} (v : S64.Idx → α) (n : Fin 64) :
    shapeCast S64x1 v shapeCasts_S64_S64x1 (ix2 n (0 : Fin 1)) = v (ix1 n) :=
  shapeCast_apply v shapeCasts_S64_S64x1 (ix2 n (0 : Fin 1)) (ix1 n) (by
    rw [Shape.rowMajor_val_one, Shape.rowMajor_val_two]
    show n.val = n.val * 1 + 0
    omega)

/-- A one-column table repeated across 64 columns. -/
private theorem bcast_apply {α : Type} (v : S64x1.Idx → α) (n m : Fin 64) :
    broadcastTo S64x64 v broadcasts_S64x1_S64x64 (ix2 n m) = v (ix2 n (0 : Fin 1)) := by
  refine broadcastTo_apply v broadcasts_S64x1_S64x64 (ix2 n m) (ix2 n (0 : Fin 1)) fun ax => ?_
  match ax with
  | ⟨0, _⟩ =>
    show n.val = if (64 : ℕ) = 1 then 0 else n.val
    rw [if_neg (by decide)]
  | ⟨1, _⟩ => rfl

/-- A row's maximum, compared once more with −∞. -/
private def rmaxv (v24 : FVec Ideal S64x64 .f32) : FVec Ideal S64 .f32 :=
  maximumf (broadcast S64 (Scalar.ofBits .f32 0xFF800000#32))
    (multiReduction .maximumf [1] S64 v24 0xFF800000#32 reduces_S64x64_S64 (.inl rfl) rfl)

/-- The exponentials of the entries less their row's maximum. -/
private def expov (v24 : FVec Ideal S64x64 .f32) : FVec Ideal S64x64 .f32 :=
  exp (subf v24 (broadcastTo S64x64 (shapeCast S64x1 (rmaxv v24) shapeCasts_S64_S64x1) broadcasts_S64x1_S64x64))

/-- The exponentials over their row sums. -/
private def softv (v24 : FVec Ideal S64x64 .f32) : FVec Ideal S64x64 .f32 :=
  divf (expov v24)
    (broadcastTo S64x64
      (shapeCast S64x1 (multiReduction .add [1] S64 (expov v24) 0x00000000#32 reduces_S64x64_S64 (.inl rfl) rfl) shapeCasts_S64_S64x1)
      broadcasts_S64x1_S64x64)

section Soft
variable (v24 : FVec Ideal S64x64 .f32) (S : Fin 64 → Fin 64 → EReal) (h24 : ∀ n m : Fin 64, v24 (ix2 n m) = S n m)
include h24

private theorem rmaxv_apply (n : Fin 64) :
    rmaxv v24 (ix1 n) = max (Ideal.ofBits .f32 0xFF800000#32)
      ((Finset.univ : Finset (Fin 64)).fold max (Ideal.ofBits .f32 0xFF800000#32) (fun m => S n m)) := by
  unfold rmaxv
  refine (maximumf_apply _ _ _).trans ?_
  refine congrArg₂ max rfl ?_
  refine (max_axis1 _ _ _ n).trans ?_
  exact congrArg (fun f : Fin 64 → EReal => Finset.fold max (Ideal.ofBits .f32 0xFF800000#32) f Finset.univ) (funext (h24 n))

private theorem expov_apply (n m : Fin 64) :
    expov v24 (ix2 n m) = Ideal.exp (S n m - max (Ideal.ofBits .f32 0xFF800000#32)
      ((Finset.univ : Finset (Fin 64)).fold max (Ideal.ofBits .f32 0xFF800000#32) (fun m => S n m))) := by
  unfold expov
  show Ideal.exp (v24 (ix2 n m) - broadcastTo S64x64 (shapeCast S64x1 (rmaxv v24) shapeCasts_S64_S64x1) broadcasts_S64x1_S64x64 (ix2 n m)) = _
  rw [bcast_apply, col_apply, rmaxv_apply v24 S h24, h24]

private theorem softv_apply (n m : Fin 64) :
    softv v24 (ix2 n m)
      = Ideal.div
          (Ideal.exp (S n m - max (Ideal.ofBits .f32 0xFF800000#32)
            ((Finset.univ : Finset (Fin 64)).fold max (Ideal.ofBits .f32 0xFF800000#32) (fun m => S n m))))
          (∑ m' : Fin 64, Ideal.exp (S n m' - max (Ideal.ofBits .f32 0xFF800000#32)
            ((Finset.univ : Finset (Fin 64)).fold max (Ideal.ofBits .f32 0xFF800000#32) (fun m => S n m)))) := by
  unfold softv
  refine (divf_apply _ _ _).trans ?_
  rw [bcast_apply, col_apply]
  exact congrArg₂ Ideal.div (expov_apply v24 S h24 n m)
    ((sum_axis1 _ _ _ n).trans (Finset.sum_congr rfl fun m' _ => expov_apply v24 S h24 n m'))

end Soft

/-! ### The whole body -/

/-- The body's arithmetic is the five stages in turn. -/
private theorem pay2_stages (x0 : Vec Ideal S1x64x256x256 .f32) (x1 x2 : Vec Ideal S64x64 .f32) :
    k0_pay2 (F := Ideal) x0 x1 x2 = softv (scorev (projv (toks x0) x1) (projv (toks x0) x2)) := rfl

/-- If the loaded image block `x0` is batch image `b` of `X`, the stored block's entry `(0, n, m)` is entry `(b, n, m)`
    of the attention table `Spec.distArr` of `X` and the two loaded weights. -/
theorem pay_eq (X : Cert.Spec.SX.Idx → EReal) (b : Fin 16)
    (x0 : Vec Ideal S1x64x256x256 .f32) (x1 x2 : Vec Ideal S64x64 .f32)
    (hx0 : ∀ (c : Fin 64) (h w : Fin 256), x0 (ix4 (0 : Fin 1) c h w) = X (ix4 b c h w))
    (n m : Fin 64) :
    k0_pay1 (F := Ideal) (k0_pay2 x0 x1 x2) (ix3 (0 : Fin 1) n m) = Cert.Spec.distArr X x1 x2 (ix3 b n m) := by
  show shapeCast S1x64x64 (k0_pay2 (F := Ideal) x0 x1 x2) shapeCasts_S64x64_S1x64x64 (ix3 (0 : Fin 1) n m) = _
  refine (shapeCast_ab_1ab_apply _ _ (0 : Fin 1) n m).trans ?_
  rw [pay2_stages]
  refine (softv_apply _ (fun n m => Cert.Spec.score X x1 x2 b n m) (fun n m => score_eq X b x0 x1 x2 hx0 n m) n m).trans ?_
  rfl

end Cert.KernelIdeal.Payload1

end
-- ==== Proof.KernelStage1.lean ====
/-
  Region 0 of the kernel (one grid point per batch image): the table it leaves in its output array.

  Grid point `t` fetches image `t` whole and both weights whole, and writes back image `t`'s 64 × 64 table; the
  body's stored block is, entry by entry, `Spec.distArr` of the three arrays at the array index under the block's
  entry. The 16 blocks tile the table array, so the array ends holding that function.
-/
import proofs.«131493_j39797166964879_1_alg».proof.Proof.Gen.KernelIdeal.Frame
import proofs.«131493_j39797166964879_1_alg».proof.Proof.Spec
import proofs.«131493_j39797166964879_1_alg».proof.Proof.KernelPayload1
import Idealize.ShloMosaic.Lib.Pipeline.Value
import Idealize.ShloMosaic.Lib.ValueIdx

set_option maxRecDepth 16384

noncomputable section

namespace Cert.KernelIdeal.Stage1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The four windows' block indices at grid point `t`: the image is `t`; the weights have one block. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The image block fetched at point `t` is image `t`. -/
theorem img_blk (c : Dev nD) (t : Fin cfg0.N) (ht : t.val < 16) (ch : Fin 64) (h w : Fin 256) :
    iblk0 V c 0 t (ix4 (0 : Fin 1) ch h w) = V c main_arg0 (ix4 (⟨t.val, ht⟩ : Fin 16) ch h w) := by
  obtain ⟨e00, e01, e02, e03, -⟩ := idx_facts t
  show V c main_arg0 (((cfg0.win 0).blk t).view.emb (ix4 (0 : Fin 1) ch h w)) = _
  refine congrArg (V c main_arg0) ?_
  funext a; apply Fin.ext
  match a with
  | ⟨0, _⟩ => show win0_0.index t (0 : Fin 4) * 1 + 1 * 0 = t.val; omega
  | ⟨1, _⟩ => show win0_0.index t (1 : Fin 4) * 64 + 1 * ch.val = ch.val; omega
  | ⟨2, _⟩ => show win0_0.index t (2 : Fin 4) * 256 + 1 * h.val = h.val; omega
  | ⟨3, _⟩ => show win0_0.index t (3 : Fin 4) * 256 + 1 * w.val = w.val; omega

/-- The first weight's one block is the weight. -/
theorem wq_blk (c : Dev nD) (t : Fin cfg0.N) : iblk0 V c 1 t = V c main_arg1 := by
  obtain ⟨-, -, -, -, e10, e11, -⟩ := idx_facts t
  funext y
  show V c main_arg1 (((cfg0.win 1).blk t).view.emb y) = V c main_arg1 y
  refine congrArg (V c main_arg1) ?_
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The second weight's one block is the weight. -/
theorem wk_blk (c : Dev nD) (t : Fin cfg0.N) : iblk0 V c 2 t = V c main_arg2 := by
  obtain ⟨-, -, -, -, -, -, e20, e21, -⟩ := idx_facts t
  funext y
  show V c main_arg2 (((cfg0.win 2).blk t).view.emb y) = V c main_arg2 y
  refine congrArg (V c main_arg2) ?_
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The stored block at an entry `(0, n, m)` is `Spec.distArr` at the array index under the entry. -/
theorem blk_at_ix (c : Dev nD) (t : Fin cfg0.N) (n m : Fin 64) :
    k0_pay1 (F := Ideal) (k0_pay2 (iblk0 V c 0 t) (iblk0 V c 1 t) (iblk0 V c 2 t)) (ix3 (0 : Fin 1) n m)
      = Cert.Spec.distArr (V c main_arg0) (V c main_arg1) (V c main_arg2) (((cfg0.win 3).blk t).view.emb (ix3 (0 : Fin 1) n m)) := by
  have ht : t.val < 16 := t.isLt
  obtain ⟨-, -, -, -, -, -, -, -, e30, e31, e32⟩ := idx_facts t
  have hemb : ((cfg0.win 3).blk t).view.emb (ix3 (0 : Fin 1) n m) = ix3 (⟨t.val, ht⟩ : Fin 16) n m := by
    funext a; apply Fin.ext
    match a with
    | ⟨0, _⟩ => show win0_3.index t (0 : Fin 3) * 1 + 1 * 0 = t.val; omega
    | ⟨1, _⟩ => show win0_3.index t (1 : Fin 3) * 64 + 1 * n.val = n.val; omega
    | ⟨2, _⟩ => show win0_3.index t (2 : Fin 3) * 64 + 1 * m.val = m.val; omega
  rw [hemb]
  refine (Cert.KernelIdeal.Payload1.pay_eq (V c main_arg0) (⟨t.val, ht⟩ : Fin 16) (iblk0 V c 0 t) (iblk0 V c 1 t) (iblk0 V c 2 t)
    (fun ch h w => img_blk V c t ht ch h w) n m).trans ?_
  rw [wq_blk V c t, wk_blk V c t]

/-- The same at any entry of the block: its leading coordinate is `0`. -/
theorem blk_at (c : Dev nD) (t : Fin cfg0.N) (j : S1x64x64.Idx) :
    k0_pay1 (F := Ideal) (k0_pay2 (iblk0 V c 0 t) (iblk0 V c 1 t) (iblk0 V c 2 t)) j
      = Cert.Spec.distArr (V c main_arg0) (V c main_arg1) (V c main_arg2) (((cfg0.win 3).blk t).view.emb j) := by
  have key : ∀ (n m : Fin 64), j = ix3 (0 : Fin 1) n m →
      k0_pay1 (F := Ideal) (k0_pay2 (iblk0 V c 0 t) (iblk0 V c 1 t) (iblk0 V c 2 t)) j
        = Cert.Spec.distArr (V c main_arg0) (V c main_arg1) (V c main_arg2) (((cfg0.win 3).blk t).view.emb j) := by
    intro n m hj
    rw [hj]
    exact blk_at_ix V c t n m
  have hj0 : (j 0).val = 0 := by have : (j 0).val < 1 := (j 0).isLt; omega
  refine key (j 1) (j 2) ?_
  funext a
  match a with
  | ⟨0, _⟩ => exact Fin.ext hj0
  | ⟨1, _⟩ => rfl
  | ⟨2, _⟩ => rfl

/-- What grid point `t` writes back is its block of `Spec.distArr` of the three arrays. -/
theorem flushed_eq (c : Dev nD) (t : Fin cfg0.N) :
    (dat0 (F := Ideal) V c).flushed 3 t
      = ((cfg0.win 3).blk t).view.read (Elt Ideal) (Cert.Spec.distArr (V c main_arg0) (V c main_arg1) (V c main_arg2)) := by
  show (cfg0.win 3).cut (grid0.coords t) ((dat0 V c).after 3 t) = _
  rw [after0_3]
  unfold out0_3
  rw [View.canon_unit_zero hz3]
  simp only [View.ld_unit_zero (S := S1x64x256x256) hz4, View.ld_unit_zero (S := S64x64) hz2]
  funext j
  exact blk_at V c t j

/-- An array index lies in point `t`'s block iff each coordinate lies in the block's range on its axis. -/
theorem mem_blk (t : Fin cfg0.N) (i : S16x64x64.Idx) :
    i ∈ ((cfg0.win 3).blk t).view.set ↔ ∀ a : Fin 3, win0_3.index t a * S1x64x64.size a ≤ (i a).val ∧ (i a).val < win0_3.index t a * S1x64x64.size a + S1x64x64.size a := by
  show i ∈ ((View.whole main_v0).slice (win0_3.rect t)).set ↔ _
  rw [View.set_slice_whole, Rect.mem_set_unit]
  exact Iff.rfl

/-- Every table index `(b, n, m)` is in the block of point `b`. -/
theorem cover (i : S16x64x64.Idx) :
    ∃ t : Fin cfg0.N, (cfg0.win 3).flush t = true ∧ i ∈ ((cfg0.win 3).blk t).view.set := by
  have h0 : (i 0).val < 16 := (i 0).isLt
  have h1 : (i 1).val < 64 := (i 1).isLt
  have h2 : (i 2).val < 64 := (i 2).isLt
  obtain ⟨-, -, -, -, -, -, -, -, e30, e31, e32⟩ := idx_facts ⟨(i 0).val, h0⟩
  have e30' : win0_3.index ⟨(i 0).val, h0⟩ (0 : Fin 3) = (i 0).val := e30
  refine ⟨⟨(i 0).val, h0⟩, flush0_3 _, ?_⟩
  rw [mem_blk]
  intro a
  match a with
  | ⟨0, _⟩ => show win0_3.index ⟨(i 0).val, h0⟩ (0 : Fin 3) * 1 ≤ (i 0).val ∧ (i 0).val < win0_3.index ⟨(i 0).val, h0⟩ (0 : Fin 3) * 1 + 1; omega
  | ⟨1, _⟩ => show win0_3.index ⟨(i 0).val, h0⟩ (1 : Fin 3) * 64 ≤ (i 1).val ∧ (i 1).val < win0_3.index ⟨(i 0).val, h0⟩ (1 : Fin 3) * 64 + 64; omega
  | ⟨2, _⟩ => show win0_3.index ⟨(i 0).val, h0⟩ (2 : Fin 3) * 64 ≤ (i 2).val ∧ (i 2).val < win0_3.index ⟨(i 0).val, h0⟩ (2 : Fin 3) * 64 + 64; omega

/-- After the 16 grid points of the first pallas_call, whatever the region found in its arrays (`V`), its output array
    holds the attention table `Spec.distArr` of the three argument arrays. -/
theorem arr_eq (c : Dev nD) :
    (dat0 (F := Ideal) V c).arrAt 3 cfg0.N = Cert.Spec.distArr (V c main_arg0) (V c main_arg1) (V c main_arg2) :=
  (dat0 (F := Ideal) V c).arrAt_eq_of_cover 3 _ (fun t _ => flushed_eq V c t) cover

end Cert.KernelIdeal.Stage1

end
-- ==== Proof.KernelPayload2.lean ====
/-
  The arithmetic of the second kernel body at one entry of the block it stores: from a 16-channel tile of one batch
  image and that image's attention table to one output pixel.
-/
import proofs.«131493_j39797166964879_1_alg».proof.Proof.Gen.KernelIdeal.Skeleton
import proofs.«131493_j39797166964879_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Payload2

open Cert.KernelIdeal Cert.KernelIdeal.Gen
open Idealize.ShloMosaic Idealize.ShloMosaic.TcCoe Idealize.ShloMosaic.ValueIdx

/-! The matrix product's operand indices, one axis at a time. -/

private theorem lhs_mm_0 (i : S64x16384.Idx) (q : dot_S64x64_S64x16384_S64x16384_1_0_0_1_n_n.contr.Idx) :
    (dot_S64x64_S64x16384_S64x16384_1_0_0_1_n_n.lhsIdx i q 0).val = (i 0).val := by
  unfold DotDims.lhsIdx
  rw [dif_neg (show ¬(0 : Fin S64x64.rank) ∈ dot_S64x64_S64x16384_S64x16384_1_0_0_1_n_n.lhsBatch by decide), dif_pos (show (0 : Fin S64x64.rank) ∈ dot_S64x64_S64x16384_S64x16384_1_0_0_1_n_n.lhsNonContracting by decide)]
  rfl
private theorem lhs_mm_1 (i : S64x16384.Idx) (q : dot_S64x64_S64x16384_S64x16384_1_0_0_1_n_n.contr.Idx) :
    (dot_S64x64_S64x16384_S64x16384_1_0_0_1_n_n.lhsIdx i q 1).val = (q ⟨0, by decide⟩).val :=
  dot_S64x64_S64x16384_S64x16384_1_0_0_1_n_n.lhsIdx_val_of_single rfl i q
private theorem rhs_mm_0 (i : S64x16384.Idx) (q : dot_S64x64_S64x16384_S64x16384_1_0_0_1_n_n.contr.Idx) :
    (dot_S64x64_S64x16384_S64x16384_1_0_0_1_n_n.rhsIdx i q 0).val = (q ⟨0, by decide⟩).val :=
  dot_S64x64_S64x16384_S64x16384_1_0_0_1_n_n.rhsIdx_val_of_single rfl i q
private theorem rhs_mm_1 (i : S64x16384.Idx) (q : dot_S64x64_S64x16384_S64x16384_1_0_0_1_n_n.contr.Idx) :
    (dot_S64x64_S64x16384_S64x16384_1_0_0_1_n_n.rhsIdx i q 1).val = (i 1).val := by
  unfold DotDims.rhsIdx
  rw [dif_neg (show ¬(1 : Fin S64x16384.rank) ∈ dot_S64x64_S64x16384_S64x16384_1_0_0_1_n_n.rhsBatch by decide), dif_pos (show (1 : Fin S64x16384.rank) ∈ dot_S64x64_S64x16384_S64x16384_1_0_0_1_n_n.rhsNonContracting by decide)]
  rfl

/-- The product into the zero accumulator, read at `(n, c)`: the sum over the 64 contracted positions. -/
private theorem mm_apply (A : FVec Ideal S64x64 .bf16) (B : FVec Ideal S64x16384 .bf16) (n : Fin 64) (c : Fin 16384) :
    matmul dot_S64x64_S64x16384_S64x16384_1_0_0_1_n_n none A B (constant (F := Ideal) S64x16384 .f32 0x00000000#32) (ix2 n c)
      = ∑ m : Fin 64, A (ix2 n m) * B (ix2 m c) := by
  simp only [matmul]
  rw [Ideal.matmul_constant_zero_apply, ← Equiv.sum_comp (ValueIdx.contrEquiv1 dot_S64x64_S64x16384_S64x16384_1_0_0_1_n_n 64 rfl rfl).symm]
  refine Finset.sum_congr rfl fun k _ => ?_
  have hk := ValueIdx.contrEquiv1_symm_val dot_S64x64_S64x16384_S64x16384_1_0_0_1_n_n 64 rfl rfl k
  have el : dot_S64x64_S64x16384_S64x16384_1_0_0_1_n_n.lhsIdx (ix2 n c) ((ValueIdx.contrEquiv1 dot_S64x64_S64x16384_S64x16384_1_0_0_1_n_n 64 rfl rfl).symm k) = ix2 n k := funext fun a => Fin.ext (by
    match a with
    | ⟨0, _⟩ => exact lhs_mm_0 _ _
    | ⟨1, _⟩ => exact (lhs_mm_1 _ _).trans hk)
  have er : dot_S64x64_S64x16384_S64x16384_1_0_0_1_n_n.rhsIdx (ix2 n c) ((ValueIdx.contrEquiv1 dot_S64x64_S64x16384_S64x16384_1_0_0_1_n_n 64 rfl rfl).symm k) = ix2 k c := funext fun a => Fin.ext (by
    match a with
    | ⟨0, _⟩ => exact (rhs_mm_0 _ _).trans hk
    | ⟨1, _⟩ => exact rhs_mm_1 _ _)
  rw [el, er]

/-! The layout chains read at an index. -/

/-- The table block viewed as a matrix. -/
private theorem left_at (x1 : Vec Ideal S1x64x64 .f32) (n m : Fin 64) :
    shapeCast S64x64 x1 shapeCasts_S1x64x64_S64x64 (ix2 n m) = x1 (ix3 (0 : Fin 1) n m) := by
  refine shapeCast_apply x1 _ (ix2 n m) (ix3 (0 : Fin 1) n m) ?_
  rw [Shape.rowMajor_val_three, Shape.rowMajor_val_two]
  show ((0 : Nat) * 64 + n.val) * 64 + m.val = n.val * 64 + m.val
  omega

/-- The right operand: row `m`, column `(tc·32 + r)·32 + s` of the re-tiled image block is the pixel at place `(r, s)`
    inside window `m` of channel `tc`. -/
private theorem right_at (x0 : Vec Ideal S1x16x256x256 .f32) (m : Fin 64) (tc : Fin 16) (r s : Fin 32) :
    shapeCast S64x16384
        (transpose S8x8x16x32x32 [1, 3, 0, 2, 4]
          (shapeCast S16x8x32x8x32 (shapeCast S16x256x256 x0 shapeCasts_S1x16x256x256_S16x256x256) shapeCasts_S16x256x256_S16x8x32x8x32)
          transposes_S16x8x32x8x32_p1_3_0_2_4_S8x8x16x32x32)
        shapeCasts_S8x8x16x32x32_S64x16384
        (ix2 m (⟨(tc.val * 32 + r.val) * 32 + s.val, by omega⟩ : Fin 16384))
      = x0 (ix4 (0 : Fin 1) tc (Cert.Spec.winRow m r) (Cert.Spec.winCol m s)) := by
  refine (shapeCast_apply _ _ (ix2 m (⟨(tc.val * 32 + r.val) * 32 + s.val, by omega⟩ : Fin 16384))
    (ix5 (⟨m.val / 8, by omega⟩ : Fin 8) (⟨m.val % 8, by omega⟩ : Fin 8) tc r s) ?_).trans ?_
  · rw [Shape.rowMajor_val_five, Shape.rowMajor_val_two]
    show ((((m.val / 8) * 8 + m.val % 8) * 16 + tc.val) * 32 + r.val) * 32 + s.val = m.val * 16384 + ((tc.val * 32 + r.val) * 32 + s.val)
    omega
  refine (transpose_apply _ _ _ (ix5 (⟨m.val / 8, by omega⟩ : Fin 8) (⟨m.val % 8, by omega⟩ : Fin 8) tc r s)
    (ix5 tc (⟨m.val / 8, by omega⟩ : Fin 8) r (⟨m.val % 8, by omega⟩ : Fin 8) s) ?_).trans ?_
  · intro b
    match b with
    | ⟨0, _⟩ => rfl
    | ⟨1, _⟩ => rfl
    | ⟨2, _⟩ => rfl
    | ⟨3, _⟩ => rfl
    | ⟨4, _⟩ => rfl
  refine (shapeCast_apply _ _ (ix5 tc (⟨m.val / 8, by omega⟩ : Fin 8) r (⟨m.val % 8, by omega⟩ : Fin 8) s)
    (ix3 tc (Cert.Spec.winRow m r) (Cert.Spec.winCol m s)) ?_).trans ?_
  · rw [Shape.rowMajor_val_three, Shape.rowMajor_val_five]
    show (tc.val * 256 + ((m.val / 8) * 32 + r.val)) * 256 + ((m.val % 8) * 32 + s.val)
      = (((tc.val * 8 + m.val / 8) * 32 + r.val) * 8 + m.val % 8) * 32 + s.val
    omega
  refine shapeCast_apply _ _ (ix3 tc (Cert.Spec.winRow m r) (Cert.Spec.winCol m s))
    (ix4 (0 : Fin 1) tc (Cert.Spec.winRow m r) (Cert.Spec.winCol m s)) ?_
  rw [Shape.rowMajor_val_four, Shape.rowMajor_val_three]
  show (((0 : Nat) * 16 + tc.val) * 256 + ((m.val / 8) * 32 + r.val)) * 256 + ((m.val % 8) * 32 + s.val)
    = (tc.val * 256 + ((m.val / 8) * 32 + r.val)) * 256 + ((m.val % 8) * 32 + s.val)
  omega

/-- The stored block read back from the product: entry `(0, tc, h, w)` is the product's row `winOf h w`, column
    `(tc·32 + h mod 32)·32 + w mod 32`. -/
private theorem out_at (v9 : FVec Ideal S64x16384 .f32) (tc : Fin 16) (h w : Fin 256) :
    shapeCast S1x16x256x256
        (shapeCast S16x256x256
          (transpose S16x8x32x8x32 [2, 0, 3, 1, 4] (shapeCast S8x8x16x32x32 v9 shapeCasts_S64x16384_S8x8x16x32x32)
            transposes_S8x8x16x32x32_p2_0_3_1_4_S16x8x32x8x32)
          shapeCasts_S16x8x32x8x32_S16x256x256)
        shapeCasts_S16x256x256_S1x16x256x256
        (ix4 (0 : Fin 1) tc h w)
      = v9 (ix2 (Cert.Spec.winOf h w)
          (⟨(tc.val * 32 + (Cert.Spec.inWin h).val) * 32 + (Cert.Spec.inWin w).val, by
            have := (Cert.Spec.inWin h).isLt; have := (Cert.Spec.inWin w).isLt; omega⟩ : Fin 16384)) := by
  have hh := h.isLt
  have hw := w.isLt
  refine (shapeCast_apply _ _ (ix4 (0 : Fin 1) tc h w) (ix3 tc h w) ?_).trans ?_
  · rw [Shape.rowMajor_val_three, Shape.rowMajor_val_four]
    show (tc.val * 256 + h.val) * 256 + w.val = (((0 : Nat) * 16 + tc.val) * 256 + h.val) * 256 + w.val
    omega
  refine (shapeCast_apply _ _ (ix3 tc h w)
    (ix5 tc (⟨h.val / 32, by omega⟩ : Fin 8) (Cert.Spec.inWin h) (⟨w.val / 32, by omega⟩ : Fin 8) (Cert.Spec.inWin w)) ?_).trans ?_
  · rw [Shape.rowMajor_val_five, Shape.rowMajor_val_three]
    show (((tc.val * 8 + h.val / 32) * 32 + h.val % 32) * 8 + w.val / 32) * 32 + w.val % 32 = (tc.val * 256 + h.val) * 256 + w.val
    omega
  refine (transpose_apply _ _ _
    (ix5 tc (⟨h.val / 32, by omega⟩ : Fin 8) (Cert.Spec.inWin h) (⟨w.val / 32, by omega⟩ : Fin 8) (Cert.Spec.inWin w))
    (ix5 (⟨h.val / 32, by omega⟩ : Fin 8) (⟨w.val / 32, by omega⟩ : Fin 8) tc (Cert.Spec.inWin h) (Cert.Spec.inWin w)) ?_).trans ?_
  · intro b
    match b with
    | ⟨0, _⟩ => rfl
    | ⟨1, _⟩ => rfl
    | ⟨2, _⟩ => rfl
    | ⟨3, _⟩ => rfl
    | ⟨4, _⟩ => rfl
  refine shapeCast_apply _ _
    (ix5 (⟨h.val / 32, by omega⟩ : Fin 8) (⟨w.val / 32, by omega⟩ : Fin 8) tc (Cert.Spec.inWin h) (Cert.Spec.inWin w))
    (ix2 (Cert.Spec.winOf h w) (⟨(tc.val * 32 + (Cert.Spec.inWin h).val) * 32 + (Cert.Spec.inWin w).val, by
            have := (Cert.Spec.inWin h).isLt; have := (Cert.Spec.inWin w).isLt; omega⟩ : Fin 16384)) ?_
  rw [Shape.rowMajor_val_two, Shape.rowMajor_val_five]
  show ((h.val / 32) * 8 + w.val / 32) * 16384 + ((tc.val * 32 + h.val % 32) * 32 + w.val % 32)
    = ((((h.val / 32) * 8 + w.val / 32) * 16 + tc.val) * 32 + h.val % 32) * 32 + w.val % 32
  omega

/-- If the loaded image block `x0` is channels `16·ct …` of batch image `b` of `X` and the loaded table block `x1` is
    image `b`'s table in `D`, the stored block's entry `(0, tc, h, w)` is entry `(b, 16·ct + tc, h, w)` of `Spec.applyArr D X`. -/
theorem pay_eq (D : Cert.Spec.SD.Idx → EReal) (X : Cert.Spec.SX.Idx → EReal) (b : Fin 16) (ct : Fin 4)
    (x0 : Vec Ideal S1x16x256x256 .f32) (x1 : Vec Ideal S1x64x64 .f32)
    (hx0 : ∀ (tc : Fin 16) (h w : Fin 256), x0 (ix4 (0 : Fin 1) tc h w) = X (ix4 b ⟨ct.val * 16 + tc.val, by omega⟩ h w))
    (hx1 : ∀ (n m : Fin 64), x1 (ix3 (0 : Fin 1) n m) = D (ix3 b n m))
    (tc : Fin 16) (h w : Fin 256) :
    k1_pay1 (F := Ideal) x0 x1 (ix4 (0 : Fin 1) tc h w)
      = Cert.Spec.applyArr D X (ix4 b ⟨ct.val * 16 + tc.val, by omega⟩ h w) := by
  unfold k1_pay1
  -- the stored entry is one entry of the product …
  refine (out_at _ tc h w).trans ?_
  -- … which is the sum over the 64 windows …
  refine (mm_apply _ _ _ _).trans ?_
  show _ = ∑ m : Fin 64, D (ix3 b (Cert.Spec.winOf h w) m)
    * X (ix4 b ⟨ct.val * 16 + tc.val, by omega⟩ (Cert.Spec.winRow m (Cert.Spec.inWin h)) (Cert.Spec.winCol m (Cert.Spec.inWin w)))
  refine Finset.sum_congr rfl fun m _ => ?_
  -- … of a table entry times a pixel: the two format changes are the identity on the extended reals.
  refine congrArg₂ (· * ·) ?_ ?_
  · exact (left_at x1 (Cert.Spec.winOf h w) m).trans (hx1 (Cert.Spec.winOf h w) m)
  · exact (right_at x0 m tc (Cert.Spec.inWin h) (Cert.Spec.inWin w)).trans
      (hx0 tc (Cert.Spec.winRow m (Cert.Spec.inWin h)) (Cert.Spec.winCol m (Cert.Spec.inWin w)))

end Cert.KernelIdeal.Payload2

end
-- ==== Proof.KernelStage2.lean ====
/-
  Region 1 of the kernel (one grid point per batch image and 16-channel tile): the array it leaves.

  Grid point `t = 4·b + ct` fetches channels `16·ct …` of image `b` and image `b`'s table, and writes back the same
  channels of image `b`; the body's stored block is, entry by entry, `Spec.applyArr` of the table and the images at
  the array index under the block's entry. The 64 blocks tile the array, so the array ends holding that function.
-/
import proofs.«131493_j39797166964879_1_alg».proof.Proof.Gen.KernelIdeal.Frame
import proofs.«131493_j39797166964879_1_alg».proof.Proof.Spec
import proofs.«131493_j39797166964879_1_alg».proof.Proof.KernelPayload2
import Idealize.ShloMosaic.Lib.Pipeline.Value
import Idealize.ShloMosaic.Lib.ValueIdx

set_option maxRecDepth 16384

noncomputable section

namespace Cert.KernelIdeal.Stage2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The three windows' block indices at grid point `t`: the image is `t / 4`, the channel tile `t mod 4`. -/
theorem idx_facts : ∀ t : Fin cfg1.N,
    win1_0.index t (0 : Fin 4) = t.val / 4 ∧ win1_0.index t (1 : Fin 4) = t.val % 4 ∧ win1_0.index t (2 : Fin 4) = 0 ∧ win1_0.index t (3 : Fin 4) = 0
    ∧ win1_1.index t (0 : Fin 3) = t.val / 4 ∧ win1_1.index t (1 : Fin 3) = 0 ∧ win1_1.index t (2 : Fin 3) = 0
    ∧ win1_2.index t (0 : Fin 4) = t.val / 4 ∧ win1_2.index t (1 : Fin 4) = t.val % 4 ∧ win1_2.index t (2 : Fin 4) = 0 ∧ win1_2.index t (3 : Fin 4) = 0 :=
  (by decide +kernel : ∀ t : Fin grid1.N, _)

/-- The image block fetched at point `t` is channels `16·(t mod 4) …` of image `t / 4`. -/
theorem img_blk (c : Dev nD) (t : Fin cfg1.N) (ht : t.val < 64) (tc : Fin 16) (h w : Fin 256) :
    iblk1 V c 0 t (ix4 (0 : Fin 1) tc h w)
      = V c main_arg0 (ix4 (⟨t.val / 4, by omega⟩ : Fin 16) (⟨(⟨t.val % 4, by omega⟩ : Fin 4).val * 16 + tc.val, by show t.val % 4 * 16 + tc.val < 64; omega⟩ : Fin 64) h w) := by
  obtain ⟨e00, e01, e02, e03, -⟩ := idx_facts t
  show V c main_arg0 (((cfg1.win 0).blk t).view.emb (ix4 (0 : Fin 1) tc h w)) = _
  refine congrArg (V c main_arg0) ?_
  funext a; apply Fin.ext
  match a with
  | ⟨0, _⟩ => show win1_0.index t (0 : Fin 4) * 1 + 1 * 0 = t.val / 4; omega
  | ⟨1, _⟩ => show win1_0.index t (1 : Fin 4) * 16 + 1 * tc.val = t.val % 4 * 16 + tc.val; omega
  | ⟨2, _⟩ => show win1_0.index t (2 : Fin 4) * 256 + 1 * h.val = h.val; omega
  | ⟨3, _⟩ => show win1_0.index t (3 : Fin 4) * 256 + 1 * w.val = w.val; omega

/-- The table block fetched at point `t` is image `t / 4`'s table. -/
theorem tab_blk (c : Dev nD) (t : Fin cfg1.N) (ht : t.val < 64) (n m : Fin 64) :
    iblk1 V c 1 t (ix3 (0 : Fin 1) n m) = V c main_v0 (ix3 (⟨t.val / 4, by omega⟩ : Fin 16) n m) := by
  obtain ⟨-, -, -, -, e10, e11, e12, -⟩ := idx_facts t
  show V c main_v0 (((cfg1.win 1).blk t).view.emb (ix3 (0 : Fin 1) n m)) = _
  refine congrArg (V c main_v0) ?_
  funext a; apply Fin.ext
  match a with
  | ⟨0, _⟩ => show win1_1.index t (0 : Fin 3) * 1 + 1 * 0 = t.val / 4; omega
  | ⟨1, _⟩ => show win1_1.index t (1 : Fin 3) * 64 + 1 * n.val = n.val; omega
  | ⟨2, _⟩ => show win1_1.index t (2 : Fin 3) * 64 + 1 * m.val = m.val; omega

/-- The stored block at an entry `(0, tc, h, w)` is `Spec.applyArr` at the array index under the entry. -/
theorem blk_at_ix (c : Dev nD) (t : Fin cfg1.N) (tc : Fin 16) (h w : Fin 256) :
    k1_pay1 (F := Ideal) (iblk1 V c 0 t) (iblk1 V c 1 t) (ix4 (0 : Fin 1) tc h w)
      = Cert.Spec.applyArr (V c main_v0) (V c main_arg0) (((cfg1.win 2).blk t).view.emb (ix4 (0 : Fin 1) tc h w)) := by
  have ht : t.val < 64 := t.isLt
  obtain ⟨-, -, -, -, -, -, -, e20, e21, e22, e23⟩ := idx_facts t
  have hemb : ((cfg1.win 2).blk t).view.emb (ix4 (0 : Fin 1) tc h w)
      = ix4 (⟨t.val / 4, by omega⟩ : Fin 16) (⟨(⟨t.val % 4, by omega⟩ : Fin 4).val * 16 + tc.val, by show t.val % 4 * 16 + tc.val < 64; omega⟩ : Fin 64) h w := by
    funext a; apply Fin.ext
    match a with
    | ⟨0, _⟩ => show win1_2.index t (0 : Fin 4) * 1 + 1 * 0 = t.val / 4; omega
    | ⟨1, _⟩ => show win1_2.index t (1 : Fin 4) * 16 + 1 * tc.val = t.val % 4 * 16 + tc.val; omega
    | ⟨2, _⟩ => show win1_2.index t (2 : Fin 4) * 256 + 1 * h.val = h.val; omega
    | ⟨3, _⟩ => show win1_2.index t (3 : Fin 4) * 256 + 1 * w.val = w.val; omega
  rw [hemb]
  exact Cert.KernelIdeal.Payload2.pay_eq (V c main_v0) (V c main_arg0) (⟨t.val / 4, by omega⟩ : Fin 16) (⟨t.val % 4, by omega⟩ : Fin 4)
    (iblk1 V c 0 t) (iblk1 V c 1 t) (fun tc h w => img_blk V c t ht tc h w) (fun n m => tab_blk V c t ht n m) tc h w

/-- The same at any entry of the block: its leading coordinate is `0`. -/
theorem blk_at (c : Dev nD) (t : Fin cfg1.N) (j : S1x16x256x256.Idx) :
    k1_pay1 (F := Ideal) (iblk1 V c 0 t) (iblk1 V c 1 t) j
      = Cert.Spec.applyArr (V c main_v0) (V c main_arg0) (((cfg1.win 2).blk t).view.emb j) := by
  have key : ∀ (tc : Fin 16) (h w : Fin 256), j = ix4 (0 : Fin 1) tc h w →
      k1_pay1 (F := Ideal) (iblk1 V c 0 t) (iblk1 V c 1 t) j
        = Cert.Spec.applyArr (V c main_v0) (V c main_arg0) (((cfg1.win 2).blk t).view.emb j) := by
    intro tc h w hj
    rw [hj]
    exact blk_at_ix V c t tc h w
  have hj0 : (j 0).val = 0 := by have : (j 0).val < 1 := (j 0).isLt; omega
  refine key (j 1) (j 2) (j 3) ?_
  funext a
  match a with
  | ⟨0, _⟩ => exact Fin.ext hj0
  | ⟨1, _⟩ => rfl
  | ⟨2, _⟩ => rfl
  | ⟨3, _⟩ => rfl

/-- What grid point `t` writes back is its block of `Spec.applyArr` of the table and the images. -/
theorem flushed_eq (c : Dev nD) (t : Fin cfg1.N) :
    (dat1 (F := Ideal) V c).flushed 2 t
      = ((cfg1.win 2).blk t).view.read (Elt Ideal) (Cert.Spec.applyArr (V c main_v0) (V c main_arg0)) := by
  show (cfg1.win 2).cut (grid1.coords t) ((dat1 V c).after 2 t) = _
  rw [after1_2]
  unfold out1_2
  rw [View.canon_unit_zero hz4]
  simp only [View.ld_unit_zero (S := S1x16x256x256) hz4, View.ld_unit_zero (S := S1x64x64) hz3]
  funext j
  exact blk_at V c t j

/-- An array index lies in point `t`'s block iff each coordinate lies in the block's range on its axis. -/
theorem mem_blk (t : Fin cfg1.N) (i : S16x64x256x256.Idx) :
    i ∈ ((cfg1.win 2).blk t).view.set ↔ ∀ a : Fin 4, win1_2.index t a * S1x16x256x256.size a ≤ (i a).val ∧ (i a).val < win1_2.index t a * S1x16x256x256.size a + S1x16x256x256.size a := by
  show i ∈ ((View.whole main_v1).slice (win1_2.rect t)).set ↔ _
  rw [View.set_slice_whole, Rect.mem_set_unit]
  exact Iff.rfl

/-- Every array index is in the block of point `4·b + c / 16`. -/
theorem cover (i : S16x64x256x256.Idx) :
    ∃ t : Fin cfg1.N, (cfg1.win 2).flush t = true ∧ i ∈ ((cfg1.win 2).blk t).view.set := by
  have h0 : (i 0).val < 16 := (i 0).isLt
  have h1 : (i 1).val < 64 := (i 1).isLt
  have h2 : (i 2).val < 256 := (i 2).isLt
  have h3 : (i 3).val < 256 := (i 3).isLt
  have hlt : (i 0).val * 4 + (i 1).val / 16 < 64 := by omega
  obtain ⟨-, -, -, -, -, -, -, e20, e21, e22, e23⟩ := idx_facts ⟨(i 0).val * 4 + (i 1).val / 16, hlt⟩
  have e20' : win1_2.index ⟨(i 0).val * 4 + (i 1).val / 16, hlt⟩ (0 : Fin 4) = ((i 0).val * 4 + (i 1).val / 16) / 4 := e20
  have e21' : win1_2.index ⟨(i 0).val * 4 + (i 1).val / 16, hlt⟩ (1 : Fin 4) = ((i 0).val * 4 + (i 1).val / 16) % 4 := e21
  refine ⟨⟨(i 0).val * 4 + (i 1).val / 16, hlt⟩, flush1_2 _, ?_⟩
  rw [mem_blk]
  intro a
  match a with
  | ⟨0, _⟩ => show win1_2.index ⟨(i 0).val * 4 + (i 1).val / 16, hlt⟩ (0 : Fin 4) * 1 ≤ (i 0).val ∧ (i 0).val < win1_2.index ⟨(i 0).val * 4 + (i 1).val / 16, hlt⟩ (0 : Fin 4) * 1 + 1; omega
  | ⟨1, _⟩ => show win1_2.index ⟨(i 0).val * 4 + (i 1).val / 16, hlt⟩ (1 : Fin 4) * 16 ≤ (i 1).val ∧ (i 1).val < win1_2.index ⟨(i 0).val * 4 + (i 1).val / 16, hlt⟩ (1 : Fin 4) * 16 + 16; omega
  | ⟨2, _⟩ => show win1_2.index ⟨(i 0).val * 4 + (i 1).val / 16, hlt⟩ (2 : Fin 4) * 256 ≤ (i 2).val ∧ (i 2).val < win1_2.index ⟨(i 0).val * 4 + (i 1).val / 16, hlt⟩ (2 : Fin 4) * 256 + 256; omega
  | ⟨3, _⟩ => show win1_2.index ⟨(i 0).val * 4 + (i 1).val / 16, hlt⟩ (3 : Fin 4) * 256 ≤ (i 3).val ∧ (i 3).val < win1_2.index ⟨(i 0).val * 4 + (i 1).val / 16, hlt⟩ (3 : Fin 4) * 256 + 256; omega

/-- After the 16 × 4 grid points of the second pallas_call, whatever the region found in its arrays (`V`), its output
    array holds `Spec.applyArr` of the table it read (the first call's result array) and the image batch. -/
theorem arr_eq (c : Dev nD) :
    (dat1 (F := Ideal) V c).arrAt 2 cfg1.N = Cert.Spec.applyArr (V c main_v0) (V c main_arg0) :=
  (dat1 (F := Ideal) V c).arrAt_eq_of_cover 2 _ (fun t _ => flushed_eq V c t) cover

end Cert.KernelIdeal.Stage2

end
-- ==== Proof.RefStage1.lean ====
/-
  The reference's attention table (its operation %25) is the specification's.
-/
import proofs.«131493_j39797166964879_1_alg».proof.Proof.Gen.ReferenceIdeal.Read
import proofs.«131493_j39797166964879_1_alg».proof.Proof.Spec
import Idealize.ShloMosaic.Lib.Pipeline.Value
import Idealize.ShloMosaic.Lib.ValueIdx
import Idealize.ShloMosaic.Lib.ValueIdxRank6
import Idealize.ShloMosaic.Lib.ValueLayout
import Idealize.ShloMosaic.PureOps.Ideal.Laws

set_option maxRecDepth 16384

noncomputable section

namespace Cert.ReferenceIdeal.Stage1

open Cert.ReferenceIdeal Cert.ReferenceIdeal.Gen Cert.ReferenceIdeal.Read
open Idealize.ShloMosaic Idealize.ShloMosaic.TcCoe Idealize.ShloMosaic.ValueIdx

/-- The four kept coordinates of a rank-6 index under the reduction over axes 3 and 5. -/
private theorem drop35_val (i : S16x64x8x32x8x32.Idx) :
    ((reducesTo_S16x64x8x32x8x32_S16x64x8x8_d3_5.drop i 0 : Nat) = i 0) ∧
    ((reducesTo_S16x64x8x32x8x32_S16x64x8x8_d3_5.drop i 1 : Nat) = i 1) ∧
    ((reducesTo_S16x64x8x32x8x32_S16x64x8x8_d3_5.drop i 2 : Nat) = i 2) ∧
    ((reducesTo_S16x64x8x32x8x32_S16x64x8x8_d3_5.drop i 3 : Nat) = i 4) :=
  ⟨Shape.ReducesTo.drop_apply_val_of_eq _ i 0 0, Shape.ReducesTo.drop_apply_val_of_eq _ i 1 1,
   Shape.ReducesTo.drop_apply_val_of_eq _ i 2 2, Shape.ReducesTo.drop_apply_val_of_eq _ i 3 4⟩

/-- The sum over the two window axes: the rank-6 indices that drop to `(b, c, wi, wj)` are the pairs `(r, s)`. -/
private theorem sum_two_axes (x : S16x64x8x32x8x32.Idx → EReal) (init : EReal)
    (b : Fin 16) (c : Fin 64) (wi wj : Fin 8) :
    Ideal.hostReduceAdd reducesTo_S16x64x8x32x8x32_S16x64x8x8_d3_5 x init (ix4 b c wi wj)
      = init + ∑ r : Fin 32, ∑ s : Fin 32, x (ix6 b c wi r wj s) := by
  unfold Ideal.hostReduceAdd
  refine congrArg (init + ·) ?_
  rw [← Finset.sum_product' (Finset.univ : Finset (Fin 32)) (Finset.univ : Finset (Fin 32)) (fun r s => x (ix6 b c wi r wj s))]
  refine Finset.sum_nbij' (fun i => ((⟨(i 3).val, (i 3).isLt⟩ : Fin 32), (⟨(i 5).val, (i 5).isLt⟩ : Fin 32)))
    (fun p => ix6 b c wi p.1 wj p.2) ?_ ?_ ?_ ?_ ?_
  · intro i _; exact Finset.mem_product.2 ⟨Finset.mem_univ _, Finset.mem_univ _⟩
  · intro p _
    refine Finset.mem_filter.2 ⟨Finset.mem_univ _, ?_⟩
    obtain ⟨h0, h1, h2, h3⟩ := drop35_val (ix6 b c wi p.1 wj p.2)
    funext a
    match a with
    | ⟨0, _⟩ => exact Fin.ext h0
    | ⟨1, _⟩ => exact Fin.ext h1
    | ⟨2, _⟩ => exact Fin.ext h2
    | ⟨3, _⟩ => exact Fin.ext h3
  · intro i hi
    have hj := (Finset.mem_filter.1 hi).2
    obtain ⟨h0, h1, h2, h3⟩ := drop35_val i
    have e0 := congrArg (fun j : S16x64x8x8.Idx => (j 0).val) hj
    have e1 := congrArg (fun j : S16x64x8x8.Idx => (j 1).val) hj
    have e2 := congrArg (fun j : S16x64x8x8.Idx => (j 2).val) hj
    have e3 := congrArg (fun j : S16x64x8x8.Idx => (j 3).val) hj
    funext a
    match a with
    | ⟨0, _⟩ => exact Fin.ext (e0.symm.trans h0)
    | ⟨1, _⟩ => exact Fin.ext (e1.symm.trans h1)
    | ⟨2, _⟩ => exact Fin.ext (e2.symm.trans h2)
    | ⟨3, _⟩ => rfl
    | ⟨4, _⟩ => exact Fin.ext (e3.symm.trans h3)
    | ⟨5, _⟩ => rfl
  · intro p _; rfl
  · intro i hi
    have hj := (Finset.mem_filter.1 hi).2
    obtain ⟨h0, h1, h2, h3⟩ := drop35_val i
    have e0 := congrArg (fun j : S16x64x8x8.Idx => (j 0).val) hj
    have e1 := congrArg (fun j : S16x64x8x8.Idx => (j 1).val) hj
    have e2 := congrArg (fun j : S16x64x8x8.Idx => (j 2).val) hj
    have e3 := congrArg (fun j : S16x64x8x8.Idx => (j 3).val) hj
    refine congrArg x (funext fun a => ?_)
    match a with
    | ⟨0, _⟩ => exact Fin.ext (h0.symm.trans e0)
    | ⟨1, _⟩ => exact Fin.ext (h1.symm.trans e1)
    | ⟨2, _⟩ => exact Fin.ext (h2.symm.trans e2)
    | ⟨3, _⟩ => rfl
    | ⟨4, _⟩ => exact Fin.ext (h3.symm.trans e3)
    | ⟨5, _⟩ => rfl

/-- The image batch cut into windows (the reshape to rank 6), at an index: window `(wi, wj)`, place `(r, s)`. -/
private theorem windows_at (x0 : (⟨S16x64x256x256, .f32⟩ : BufTy).Contents (Elt Ideal))
    (b : Fin 16) (c : Fin 64) (wi : Fin 8) (r : Fin 32) (wj : Fin 8) (s : Fin 32) :
    val_main_v0 (F := Ideal) x0 (ix6 b c wi r wj s)
      = x0 (ix4 b c (⟨wi.val * 32 + r.val, by have := wi.isLt; have := r.isLt; omega⟩ : Fin 256)
          (⟨wj.val * 32 + s.val, by have := wj.isLt; have := s.isLt; omega⟩ : Fin 256)) := by
  unfold val_main_v0
  exact shapeCast_apply x0 shapeCasts_S16x64x256x256_S16x64x8x32x8x32 _ _
    (by rewrite [Shape.rowMajor_val_four, Shape.rowMajor_val_six]
        show ((b.val * 64 + c.val) * 256 + (wi.val * 32 + r.val)) * 256 + (wj.val * 32 + s.val)
          = ((((b.val * 64 + c.val) * 8 + wi.val) * 32 + r.val) * 8 + wj.val) * 32 + s.val
        omega)

/-- The pooled token: operation %5 at `(b, n, c)` is the mean of channel `c` over window `n`. -/
private theorem tok_at (x0 : (⟨S16x64x256x256, .f32⟩ : BufTy).Contents (Elt Ideal)) (b : Fin 16) (n c : Fin 64) :
    val_main_v5 (F := Ideal) x0 (ix3 b n c) = Cert.Spec.tok x0 b n c := by
  have hn := n.isLt
  have ej : idx_main_v4 (idx_main_v5 (ix3 b n c))
      = ix4 b c (⟨n.val / 8, by omega⟩ : Fin 8) (⟨n.val % 8, by omega⟩ : Fin 8) := by
    have hb := b.isLt
    have hc := c.isLt
    funext a
    match a with
    | ⟨0, _⟩ => exact Fin.ext (by show ((b.val * 64 + c.val) * 64 + n.val) / 4096 = b.val; omega)
    | ⟨1, _⟩ => exact Fin.ext (by show ((b.val * 64 + c.val) * 64 + n.val) / 64 % 64 = c.val; omega)
    | ⟨2, _⟩ => exact Fin.ext (by show ((b.val * 64 + c.val) * 64 + n.val) / 8 % 8 = n.val / 8; omega)
    | ⟨3, _⟩ => exact Fin.ext (by show ((b.val * 64 + c.val) * 64 + n.val) % 8 = n.val % 8; omega)
  rw [val_main_v5_apply, val_main_v4_apply, val_main_v3_apply, val_main_v2_apply, val_main_cst_0_apply, ej,
    Ideal.hostDivf_def, Ideal.ofBits_def, Cert.Spec.div_1024]
  unfold Cert.Spec.tok val_main_v1
  refine congrArg (· * _) ?_
  simp only [Host.reduceAdd, Ideal.hostReduceAdd_def]
  rw [sum_two_axes, val_main_cst_apply, Ideal.ofBits_def, Ideal.ofBits_zero_f32, zero_add]
  refine Finset.sum_congr rfl fun r _ => Finset.sum_congr rfl fun s _ => ?_
  rw [windows_at]
  rfl

/-- A projection of the tokens by a weight (operations %6 and %7 are the same contraction over the channel). -/
private theorem proj_q_at (x0 : (⟨S16x64x256x256, .f32⟩ : BufTy).Contents (Elt Ideal))
    (x1 : (⟨S64x64, .f32⟩ : BufTy).Contents (Elt Ideal)) (b : Fin 16) (n k : Fin 64) :
    val_main_v6 (F := Ideal) x0 x1 (ix3 b n k) = Cert.Spec.proj x0 x1 b n k := by
  rw [val_main_v6_apply]
  unfold Cert.Spec.proj
  refine Finset.sum_congr rfl fun c _ => ?_
  have el : lidx_main_v6 (ix3 b n k) c = ix3 b n c := by
    funext a; match a with | ⟨0, _⟩ => rfl | ⟨1, _⟩ => rfl | ⟨2, _⟩ => rfl
  have er : ridx_main_v6 (ix3 b n k) c = ix2 k c := by
    funext a; match a with | ⟨0, _⟩ => rfl | ⟨1, _⟩ => rfl
  rw [el, er, tok_at]

private theorem proj_k_at (x0 : (⟨S16x64x256x256, .f32⟩ : BufTy).Contents (Elt Ideal))
    (x2 : (⟨S64x64, .f32⟩ : BufTy).Contents (Elt Ideal)) (b : Fin 16) (n k : Fin 64) :
    val_main_v7 (F := Ideal) x0 x2 (ix3 b n k) = Cert.Spec.proj x0 x2 b n k := by
  rw [val_main_v7_apply]
  unfold Cert.Spec.proj
  refine Finset.sum_congr rfl fun c _ => ?_
  have el : lidx_main_v7 (ix3 b n k) c = ix3 b n c := by
    funext a; match a with | ⟨0, _⟩ => rfl | ⟨1, _⟩ => rfl | ⟨2, _⟩ => rfl
  have er : ridx_main_v7 (ix3 b n k) c = ix2 k c := by
    funext a; match a with | ⟨0, _⟩ => rfl | ⟨1, _⟩ => rfl
  rw [el, er, tok_at]

/-- The scaled scores: operation %14 at `(b, n, m)`. -/
private theorem score_at (x0 : (⟨S16x64x256x256, .f32⟩ : BufTy).Contents (Elt Ideal))
    (x1 x2 : (⟨S64x64, .f32⟩ : BufTy).Contents (Elt Ideal)) (b : Fin 16) (n m : Fin 64) :
    val_main_v14 (F := Ideal) x0 x1 x2 (ix3 b n m) = Cert.Spec.score x0 x1 x2 b n m := by
  rw [val_main_v14_apply, val_main_v12_apply, val_main_v13_apply, val_main_cst_1_apply, Ideal.mulf_def,
    Ideal.ofBits_def]
  unfold Cert.Spec.score
  refine congrArg (· * _) (Finset.sum_congr rfl fun k _ => ?_)
  have el : lidx_main_v12 (ix3 b n m) k = ix3 b n k := by
    funext a; match a with | ⟨0, _⟩ => rfl | ⟨1, _⟩ => rfl | ⟨2, _⟩ => rfl
  have er : ridx_main_v12 (ix3 b n m) k = ix3 b m k := by
    funext a; match a with | ⟨0, _⟩ => rfl | ⟨1, _⟩ => rfl | ⟨2, _⟩ => rfl
  rw [el, er, proj_q_at, proj_k_at]

/-- The shape fact of the row reductions in the form that names the inserted coordinate. -/
private theorem reduces_row : S16x64x64.Reduces [2] S16x64 := by decide

/-- A row's maximum: operation %17 at `(b, n)`. -/
private theorem rowMax_at (x0 : (⟨S16x64x256x256, .f32⟩ : BufTy).Contents (Elt Ideal))
    (x1 x2 : (⟨S64x64, .f32⟩ : BufTy).Contents (Elt Ideal)) (b : Fin 16) (n : Fin 64) :
    val_main_v17 (F := Ideal) x0 x1 x2 (ix2 b n) = Cert.Spec.rowMax x0 x1 x2 b n := by
  rw [val_main_v17_apply, val_main_v16_apply, val_main_cst_3_apply, Ideal.maximumf_def, Ideal.ofBits_def]
  unfold Cert.Spec.rowMax val_main_v15
  refine congrArg (max _) ?_
  have ef : (val_main_v14 (F := Ideal) x0 x1 x2 ∘ reduces_row.lift (ix2 b n))
      = fun m : Fin 64 => Cert.Spec.score x0 x1 x2 b n m := by
    refine funext fun (m : Fin 64) => ?_
    have e : reduces_row.lift (ix2 b n) m = ix3 b n m := by
      funext a
      match a with
      | ⟨0, _⟩ => exact Fin.ext rfl
      | ⟨1, _⟩ => exact Fin.ext rfl
      | ⟨2, _⟩ => exact Fin.ext rfl
    show val_main_v14 (F := Ideal) x0 x1 x2 (reduces_row.lift (ix2 b n) m) = _
    rw [e, score_at]
  generalize val_main_v14 (F := Ideal) x0 x1 x2 = y at ef ⊢
  refine (Host.reduce_eq_fold_single (FloatOps.maximumf (F := Ideal) (φ := .f32)) y
    (val_main_cst_2 (F := Ideal)) reducesTo_S16x64x64_S16x64_d2 reduces_row h_S_ (ix2 b n)).trans ?_
  rw [ef]
  rfl

/-- The exponential of a score less its row's maximum: operation %21 at `(b, n, m)`. -/
private theorem expo_at (x0 : (⟨S16x64x256x256, .f32⟩ : BufTy).Contents (Elt Ideal))
    (x1 x2 : (⟨S64x64, .f32⟩ : BufTy).Contents (Elt Ideal)) (b : Fin 16) (n m : Fin 64) :
    val_main_v21 (F := Ideal) x0 x1 x2 (ix3 b n m) = Cert.Spec.expo x0 x1 x2 b n m := by
  have e : idx_main_v18 (idx_main_v19 (ix3 b n m)) = ix2 b n := by
    funext a; match a with | ⟨0, _⟩ => rfl | ⟨1, _⟩ => rfl
  rw [val_main_v21_apply, val_main_v20_apply, val_main_v19_apply, val_main_v18_apply, e, rowMax_at, score_at,
    Ideal.hostUnary_exp_def, Ideal.subf_def]
  rfl

/-- A row's sum of exponentials: operation %22 at `(b, n)`. -/
private theorem rowSum_at (x0 : (⟨S16x64x256x256, .f32⟩ : BufTy).Contents (Elt Ideal))
    (x1 x2 : (⟨S64x64, .f32⟩ : BufTy).Contents (Elt Ideal)) (b : Fin 16) (n : Fin 64) :
    val_main_v22 (F := Ideal) x0 x1 x2 (ix2 b n) = Cert.Spec.rowSum x0 x1 x2 b n := by
  rw [val_main_v22_apply, val_main_cst_4_apply, Ideal.ofBits_def, Ideal.ofBits_zero_f32, zero_add]
  unfold Cert.Spec.rowSum
  refine Finset.sum_congr rfl fun m _ => ?_
  have e : idx_main_v22 (ix2 b n) m = ix3 b n m := by
    funext a; match a with | ⟨0, _⟩ => rfl | ⟨1, _⟩ => rfl | ⟨2, _⟩ => rfl
  rw [e, expo_at]

/-- The reference's softmax table, read index by index, is `Spec.distArr` of its three arguments. -/
theorem dist_eq (x0 : (⟨S16x64x256x256, .f32⟩ : BufTy).Contents (Elt Ideal)) (x1 x2 : (⟨S64x64, .f32⟩ : BufTy).Contents (Elt Ideal)) :
    val_main_v25 (F := Ideal) x0 x1 x2 = Cert.Spec.distArr x0 x1 x2 := by
  funext i
  obtain ⟨b, n, m, rfl⟩ : ∃ (b : Fin 16) (n m : Fin 64), i = ix3 b n m := ⟨i 0, i 1, i 2, eq_ix3 i⟩
  have e : idx_main_v23 (idx_main_v24 (ix3 b n m)) = ix2 b n := by
    funext a; match a with | ⟨0, _⟩ => rfl | ⟨1, _⟩ => rfl
  rw [val_main_v25_apply, val_main_v24_apply, val_main_v23_apply, e, rowSum_at, expo_at, Ideal.hostDivf_def]
  rfl

end Cert.ReferenceIdeal.Stage1

end
-- ==== Proof.RefStage2.lean ====
/-
  The reference's result (its operation %30) is the specification's mixing of the windows by its own table (%25).
-/
import proofs.«131493_j39797166964879_1_alg».proof.Proof.Gen.ReferenceIdeal.Read
import proofs.«131493_j39797166964879_1_alg».proof.Proof.Spec
import Idealize.ShloMosaic.Lib.Pipeline.Value
import Idealize.ShloMosaic.Lib.ValueIdx
import Idealize.ShloMosaic.Lib.ValueIdxRank6
import Idealize.ShloMosaic.Lib.ValueLayout
import Idealize.ShloMosaic.PureOps.Ideal.Laws

set_option maxRecDepth 16384

noncomputable section

namespace Cert.ReferenceIdeal.Stage2

open Cert.ReferenceIdeal Cert.ReferenceIdeal.Gen Cert.ReferenceIdeal.Read
open Idealize.ShloMosaic Idealize.ShloMosaic.TcCoe Idealize.ShloMosaic.ValueIdx

/-- The split of the two image axes into (window, offset) pairs, read at an index: the reshape keeps the
    row-major position, and `p·32 + r`, `q·32 + s` are the two image coordinates. -/
private theorem v9_at (x0 : (⟨S16x64x256x256, .f32⟩ : BufTy).Contents (Elt Ideal))
    (b : Fin 16) (p : Fin 8) (r : Fin 32) (q : Fin 8) (s : Fin 32) (c : Fin 64) :
    val_main_v9 (F := Ideal) x0 (ix6 b p r q s c)
      = val_main_v8 (F := Ideal) x0
          (ix4 b (⟨p.val * 32 + r.val, by omega⟩ : Fin 256) (⟨q.val * 32 + s.val, by omega⟩ : Fin 256) c) := by
  unfold val_main_v9
  generalize val_main_v8 (F := Ideal) x0 = y
  exact shapeCast_apply y shapeCasts_S16x256x256x64_S16x8x32x8x32x64 _ _ (by
    rw [Shape.rowMajor_val_four, Shape.rowMajor_val_six]
    show ((b.val * 256 + (p.val * 32 + r.val)) * 256 + (q.val * 32 + s.val)) * 64 + c.val
       = ((((b.val * 8 + p.val) * 32 + r.val) * 8 + q.val) * 32 + s.val) * 64 + c.val
    omega)

/-- The merge of the window pair into one window axis and of (row, column, channel) into one flat axis, read at an
    index: window `m` is the pair `(m / 8, m % 8)` and the flat coordinate is `(r·32 + s)·64 + c`. -/
private theorem v11_at (x0 : (⟨S16x64x256x256, .f32⟩ : BufTy).Contents (Elt Ideal))
    (b : Fin 16) (m : Fin 64) (r s : Fin 32) (c : Fin 64) :
    val_main_v11 (F := Ideal) x0 (ix3 b m (⟨(r.val * 32 + s.val) * 64 + c.val, by omega⟩ : Fin 65536))
      = val_main_v10 (F := Ideal) x0
          (ix6 b (⟨m.val / 8, by omega⟩ : Fin 8) (⟨m.val % 8, by omega⟩ : Fin 8) r s c) := by
  unfold val_main_v11
  generalize val_main_v10 (F := Ideal) x0 = y
  exact shapeCast_apply y shapeCasts_S16x8x8x32x32x64_S16x64x65536 _ _ (by
    rw [Shape.rowMajor_val_six, Shape.rowMajor_val_three]
    show ((((b.val * 8 + m.val / 8) * 8 + m.val % 8) * 32 + r.val) * 32 + s.val) * 64 + c.val
       = (b.val * 64 + m.val) * 65536 + ((r.val * 32 + s.val) * 64 + c.val)
    omega)

/-- The right operand of the contraction, read back to the first argument: entry `(b, m, (r·32 + s)·64 + c)` is the
    image's entry at channel `c`, row `r` and column `s` of window `m`. -/
private theorem right_at (x0 : (⟨S16x64x256x256, .f32⟩ : BufTy).Contents (Elt Ideal))
    (b : Fin 16) (m : Fin 64) (r s : Fin 32) (c : Fin 64) :
    val_main_v11 (F := Ideal) x0 (ix3 b m (⟨(r.val * 32 + s.val) * 64 + c.val, by omega⟩ : Fin 65536))
      = x0 (ix4 b c (Cert.Spec.winRow m r) (Cert.Spec.winCol m s)) := by
  rw [v11_at, val_main_v10_apply]
  have e10 : idx_main_v10 (ix6 b (⟨m.val / 8, by omega⟩ : Fin 8) (⟨m.val % 8, by omega⟩ : Fin 8) r s c)
      = ix6 b (⟨m.val / 8, by omega⟩ : Fin 8) r (⟨m.val % 8, by omega⟩ : Fin 8) s c := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e10, v9_at, val_main_v8_apply]
  refine congrArg x0 ?_
  funext a
  match a with
  | ⟨0, _⟩ => rfl
  | ⟨1, _⟩ => rfl
  | ⟨2, _⟩ => rfl
  | ⟨3, _⟩ => rfl

/-- The split of the contraction's result back into (window pair, row, column, channel), read at an index. -/
private theorem v27_at (x0 : (⟨S16x64x256x256, .f32⟩ : BufTy).Contents (Elt Ideal))
    (x1 x2 : (⟨S64x64, .f32⟩ : BufTy).Contents (Elt Ideal))
    (b : Fin 16) (p q : Fin 8) (r s : Fin 32) (c : Fin 64) :
    val_main_v27 (F := Ideal) x0 x1 x2 (ix6 b p q r s c)
      = val_main_v26 (F := Ideal) x0 x1 x2
          (ix3 b (⟨p.val * 8 + q.val, by omega⟩ : Fin 64)
            (⟨(r.val * 32 + s.val) * 64 + c.val, by omega⟩ : Fin 65536)) := by
  unfold val_main_v27
  generalize val_main_v26 (F := Ideal) x0 x1 x2 = y
  exact shapeCast_apply y shapeCasts_S16x64x65536_S16x8x8x32x32x64 _ _ (by
    rw [Shape.rowMajor_val_three, Shape.rowMajor_val_six]
    show (b.val * 64 + (p.val * 8 + q.val)) * 65536 + ((r.val * 32 + s.val) * 64 + c.val)
       = ((((b.val * 8 + p.val) * 8 + q.val) * 32 + r.val) * 32 + s.val) * 64 + c.val
    omega)

/-- The merge of (window row, row) and (window column, column) back into the two image axes, read at an index. -/
private theorem v29_at (x0 : (⟨S16x64x256x256, .f32⟩ : BufTy).Contents (Elt Ideal))
    (x1 x2 : (⟨S64x64, .f32⟩ : BufTy).Contents (Elt Ideal))
    (b : Fin 16) (h w : Fin 256) (c : Fin 64) :
    val_main_v29 (F := Ideal) x0 x1 x2 (ix4 b h w c)
      = val_main_v28 (F := Ideal) x0 x1 x2
          (ix6 b (⟨h.val / 32, by omega⟩ : Fin 8) (Cert.Spec.inWin h)
            (⟨w.val / 32, by omega⟩ : Fin 8) (Cert.Spec.inWin w) c) := by
  unfold val_main_v29
  generalize val_main_v28 (F := Ideal) x0 x1 x2 = y
  exact shapeCast_apply y shapeCasts_S16x8x32x8x32x64_S16x256x256x64 _ _ (by
    rw [Shape.rowMajor_val_six, Shape.rowMajor_val_four]
    show ((((b.val * 8 + h.val / 32) * 32 + h.val % 32) * 8 + w.val / 32) * 32 + w.val % 32) * 64 + c.val
       = ((b.val * 256 + h.val) * 256 + w.val) * 64 + c.val
    omega)

/-- The result at `(b, c, h, w)` is the contraction's entry at the pixel's window and at the flat coordinate of
    its place inside the window and its channel. -/
private theorem out_at (x0 : (⟨S16x64x256x256, .f32⟩ : BufTy).Contents (Elt Ideal))
    (x1 x2 : (⟨S64x64, .f32⟩ : BufTy).Contents (Elt Ideal))
    (b : Fin 16) (c : Fin 64) (h w : Fin 256) :
    val_main_v30 (F := Ideal) x0 x1 x2 (ix4 b c h w)
      = val_main_v26 (F := Ideal) x0 x1 x2
          (ix3 b (Cert.Spec.winOf h w)
            (⟨((Cert.Spec.inWin h).val * 32 + (Cert.Spec.inWin w).val) * 64 + c.val,
              by have := (Cert.Spec.inWin h).isLt; have := (Cert.Spec.inWin w).isLt; omega⟩ : Fin 65536)) := by
  rw [val_main_v30_apply]
  have e30 : idx_main_v30 (ix4 b c h w) = ix4 b h w c := by
    funext a
    match a with
    | ⟨0, _⟩ => rfl
    | ⟨1, _⟩ => rfl
    | ⟨2, _⟩ => rfl
    | ⟨3, _⟩ => rfl
  rw [e30, v29_at, val_main_v28_apply]
  have e28 : idx_main_v28 (ix6 b (⟨h.val / 32, by omega⟩ : Fin 8) (Cert.Spec.inWin h)
        (⟨w.val / 32, by omega⟩ : Fin 8) (Cert.Spec.inWin w) c)
      = ix6 b (⟨h.val / 32, by omega⟩ : Fin 8) (⟨w.val / 32, by omega⟩ : Fin 8)
          (Cert.Spec.inWin h) (Cert.Spec.inWin w) c := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e28, v27_at]
  refine congrArg (val_main_v26 (F := Ideal) x0 x1 x2) ?_
  funext a
  match a with
  | ⟨0, _⟩ => rfl
  | ⟨1, _⟩ => rfl
  | ⟨2, _⟩ => rfl

/-- The result at `(b, c, h, w)` is the table-weighted sum over the windows of the image's entries at the same
    channel and the same place inside each window. -/
private theorem out_val (x0 : (⟨S16x64x256x256, .f32⟩ : BufTy).Contents (Elt Ideal))
    (x1 x2 : (⟨S64x64, .f32⟩ : BufTy).Contents (Elt Ideal))
    (b : Fin 16) (c : Fin 64) (h w : Fin 256) :
    val_main_v30 (F := Ideal) x0 x1 x2 (ix4 b c h w)
      = ∑ m : Fin 64, val_main_v25 (F := Ideal) x0 x1 x2 (ix3 b (Cert.Spec.winOf h w) m)
          * x0 (ix4 b c (Cert.Spec.winRow m (Cert.Spec.inWin h)) (Cert.Spec.winCol m (Cert.Spec.inWin w))) := by
  rw [out_at, val_main_v26_apply]
  refine Finset.sum_congr rfl fun m _ => ?_
  have el : lidx_main_v26 (ix3 b (Cert.Spec.winOf h w)
        (⟨((Cert.Spec.inWin h).val * 32 + (Cert.Spec.inWin w).val) * 64 + c.val,
          by have := (Cert.Spec.inWin h).isLt; have := (Cert.Spec.inWin w).isLt; omega⟩ : Fin 65536)) m
      = ix3 b (Cert.Spec.winOf h w) m := by
    funext a
    match a with
    | ⟨0, _⟩ => rfl
    | ⟨1, _⟩ => rfl
    | ⟨2, _⟩ => rfl
  have er : ridx_main_v26 (ix3 b (Cert.Spec.winOf h w)
        (⟨((Cert.Spec.inWin h).val * 32 + (Cert.Spec.inWin w).val) * 64 + c.val,
          by have := (Cert.Spec.inWin h).isLt; have := (Cert.Spec.inWin w).isLt; omega⟩ : Fin 65536)) m
      = ix3 b m (⟨((Cert.Spec.inWin h).val * 32 + (Cert.Spec.inWin w).val) * 64 + c.val,
          by have := (Cert.Spec.inWin h).isLt; have := (Cert.Spec.inWin w).isLt; omega⟩ : Fin 65536) := by
    funext a
    match a with
    | ⟨0, _⟩ => rfl
    | ⟨1, _⟩ => rfl
    | ⟨2, _⟩ => rfl
  rw [el, er, right_at]

/-- The reference's result, read index by index through its transposes and reshapes, is `Spec.applyArr` of its
    softmax table and its first argument. -/
theorem out_eq (x0 : (⟨S16x64x256x256, .f32⟩ : BufTy).Contents (Elt Ideal)) (x1 x2 : (⟨S64x64, .f32⟩ : BufTy).Contents (Elt Ideal)) :
    val_main_v30 (F := Ideal) x0 x1 x2 = Cert.Spec.applyArr (val_main_v25 (F := Ideal) x0 x1 x2) x0 := by
  funext i
  obtain ⟨b, c, h, w, rfl⟩ : ∃ (b : Fin 16) (c : Fin 64) (h w : Fin 256), i = ix4 b c h w :=
    ⟨i 0, i 1, i 2, i 3, eq_ix4 i⟩
  exact out_val x0 x1 x2 b c h w

end Cert.ReferenceIdeal.Stage2

end
-- ==== Proof.lean ====
/-
  The certificate's claims, assembled.

  Both programs compute, on the extended reals, `Spec.applyArr (Spec.distArr X Wq Wk) X`: every 32 × 32 window of every
  channel is replaced by the mixture of the 64 windows of that channel weighted by a row of a softmax table, and the
  table comes from the windows' means projected by the two weights. The kernel does it in two pallas_calls (the table
  per batch image; then the mixing per image and 16-channel tile), the reference in one host program; they differ in
  the grouping of the window sum (columns then rows against both axes at once) and in the mean's spelling (times 2⁻¹⁰
  against divided by 1024), which agree on every extended real, and in nothing else: no finiteness is used.
-/
import proofs.«131493_j39797166964879_1_alg».proof.Defs
import proofs.«131493_j39797166964879_1_alg».proof.Proof.Gen.Kernel
import proofs.«131493_j39797166964879_1_alg».proof.Proof.Gen.Kernel.Skeleton
import proofs.«131493_j39797166964879_1_alg».proof.Proof.Gen.Kernel.Launch
import proofs.«131493_j39797166964879_1_alg».proof.Proof.Gen.Kernel.Points
import proofs.«131493_j39797166964879_1_alg».proof.Proof.Gen.Kernel.Frame
import proofs.«131493_j39797166964879_1_alg».proof.Proof.Gen.KernelIdeal
import proofs.«131493_j39797166964879_1_alg».proof.Proof.Gen.KernelIdeal.Skeleton
import proofs.«131493_j39797166964879_1_alg».proof.Proof.Gen.KernelIdeal.Launch
import proofs.«131493_j39797166964879_1_alg».proof.Proof.Gen.KernelIdeal.Points
import proofs.«131493_j39797166964879_1_alg».proof.Proof.Gen.KernelIdeal.Frame
import proofs.«131493_j39797166964879_1_alg».proof.Proof.Gen.ReferenceIdeal
import proofs.«131493_j39797166964879_1_alg».proof.Proof.Gen.Pre_finite_inputs
import proofs.«131493_j39797166964879_1_alg».proof.Proof.Gen.ReferenceIdeal.Run
import proofs.«131493_j39797166964879_1_alg».proof.Proof.Gen.ReferenceIdeal.Read
import proofs.«131493_j39797166964879_1_alg».proof.Proof.Spec
import proofs.«131493_j39797166964879_1_alg».proof.Proof.KernelRun
import proofs.«131493_j39797166964879_1_alg».proof.Proof.KernelStage1
import proofs.«131493_j39797166964879_1_alg».proof.Proof.KernelStage2
import proofs.«131493_j39797166964879_1_alg».proof.Proof.RefStage1
import proofs.«131493_j39797166964879_1_alg».proof.Proof.RefStage2
import Idealize.ShloMosaic.Adequacy
import Idealize.ShloMosaic.Init

noncomputable section

/-! ## The kernel's result array as a function of the arguments -/

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- When the second call is entered the image batch is still as launched: the first call only reads it. -/
theorem entry_arg0 (c : Dev nD) : V1 m ρ c main_arg0 = m ((c : Thread nD τ).loc main_arg0) :=
  ((W1_arr m ρ c 0).trans (((dat0 (V0 m ρ) c).arrAt_in 0 rfl _).trans (A_eq0 (V0 m ρ) c 0))).trans rfl

/-- When the second call is entered the first call's result array holds the attention table of the arguments. -/
theorem entry_table (c : Dev nD) :
    V1 m ρ c main_v0 = Cert.Spec.distArr (m ((c : Thread nD τ).loc main_arg0)) (m ((c : Thread nD τ).loc main_arg1))
      (m ((c : Thread nD τ).loc main_arg2)) :=
  (W1_arr m ρ c 3).trans (Cert.KernelIdeal.Stage1.arr_eq (V0 m ρ) c)

/-- After the second call the result array holds the windows of the launched images mixed by that table. -/
theorem result_eq (c : Dev nD) :
    W2 m ρ c (Proc.devRef .tc main_v1)
      = Cert.Spec.applyArr (Cert.Spec.distArr (m ((c : Thread nD τ).loc main_arg0)) (m ((c : Thread nD τ).loc main_arg1))
          (m ((c : Thread nD τ).loc main_arg2))) (m ((c : Thread nD τ).loc main_arg0)) := by
  refine ((W2_arr m ρ c 2).trans (Cert.KernelIdeal.Stage2.arr_eq (V1 m ρ) c)).trans ?_
  rw [entry_table m ρ c, entry_arg0 m ρ c]

end Cert.KernelIdeal.Result

/-! ## The claims -/

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at `Spec.applyArr (Spec.distArr X Wq Wk) X` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.applyArr (Cert.Spec.distArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Result.result_eq m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq, Cert.ReferenceIdeal.Stage2.out_eq, Cert.ReferenceIdeal.Stage1.dist_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
